-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S3x3584x512 : S_.BroadcastsInDim S3x3584x512 (![] : Fin 0 → Fin S3x3584x512.rank)
  reducesTo_S3x3584x512_S_d0_1_2 : S3x3584x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_

variable [Facts]

def fn_part1 {F : FTy → Type} [FloatOps F] (main_arg4 : FVec F S3x512x512 .f32) (main_arg5 : FVec F S3x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  main_v28

def fn {F : FTy → Type} [FloatOps F] (main_arg0 : FVec F S10000x512 .f32) (main_arg1 : FVec F S160000 .f32) (main_arg2 : FVec F S3x3584x512 .f32) (main_arg3 : FVec F S3x512 .f32) (main_arg4 : FVec F S3x512x512 .f32) (main_arg5 : FVec F S3x512 .f32) (main_arg6 : IVec S160000 32) (main_arg7 : IVec S160000 32) (main_arg8 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S3x3584x512 .f32 := Host.absf main_arg2
  let main_cst_2 : FVec F S_ .f32 := constant S_ .f32 0x7F800000#32
  let main_v10 : FVec F S3x3584x512 .f32 := broadcastInDim S3x3584x512 ![] bcast_S_S3x3584x512 main_cst_2
  let main_v11 : IVec S3x3584x512 1 := cmpf .olt main_v9 main_v10
  let main_c_3 : IVec S_ 1 := constantI S_ 1 1#1
  let main_v12 : IVec S_ 1 := (fun x v => Host.reduce IntOp.andi x v reducesTo_S3x3584x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_v13 main_v16
-- ==== Kernel.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩
abbrev S160000x1 : Shape := ⟨2, ![160000, 1]⟩
abbrev S160000x512 : Shape := ⟨2, ![160000, 512]⟩
abbrev S70000x512 : Shape := ⟨2, ![70000, 512]⟩
abbrev S10000x3584 : Shape := ⟨2, ![10000, 3584]⟩
abbrev S1x512 : Shape := ⟨2, ![1, 512]⟩
abbrev S512 : Shape := ⟨1, ![512]⟩
abbrev S1x3584x512 : Shape := ⟨3, ![1, 3584, 512]⟩
abbrev S3584x512 : Shape := ⟨2, ![3584, 512]⟩
abbrev S1x512x512 : Shape := ⟨3, ![1, 512, 512]⟩
abbrev S512x512 : Shape := ⟨2, ![512, 512]⟩
abbrev S1000x3584 : Shape := ⟨2, ![1000, 3584]⟩
abbrev S1000x512 : Shape := ⟨2, ![1000, 512]⟩

abbrev nBuf : Space → Nat
  | .hbm => 107
  | .vmem => 27
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S3x3584x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S3x3584x512, .bf16⟩
  | .hbm, ⟨10, _⟩ => ⟨S3x512x512, .bf16⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .f32⟩
  | .hbm, ⟨16, _⟩ => ⟨S_, .i32⟩
  | .hbm, ⟨17, _⟩ => ⟨S160000, .i32⟩
  | .hbm, ⟨18, _⟩ => ⟨S160000, .i1⟩
  | .hbm, ⟨19, _⟩ => ⟨S_, .i32⟩
  | .hbm, ⟨20, _⟩ => ⟨S160000, .i32⟩
  | .hbm, ⟨21, _⟩ => ⟨S160000, .i32⟩
  | .hbm, ⟨22, _⟩ => ⟨S160000, .i32⟩
  | .hbm, ⟨23, _⟩ => ⟨S160000x1, .i32⟩
  | .hbm, ⟨24, _⟩ => ⟨S160000x512, .f32⟩
  | .hbm, ⟨25, _⟩ => ⟨S160000x512, .f32⟩
  | .hbm, ⟨26, _⟩ => ⟨S160000x512, .f32⟩
  | .hbm, ⟨27, _⟩ => ⟨S_, .f32⟩
  | .hbm, ⟨28, _⟩ => ⟨S70000x512, .f32⟩
  | .hbm, ⟨29, _⟩ => ⟨S160000x1, .i32⟩
  | .hbm, ⟨30, _⟩ => ⟨S70000x512, .f32⟩
  | .hbm, ⟨31, _⟩ => ⟨S10000x3584, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S512, .f32⟩
  | .hbm, ⟨37, _⟩ => ⟨S10000x3584, .bf16⟩
  | .hbm, ⟨38, _⟩ => ⟨S10000x512, .bf16⟩
  | .hbm, ⟨39, _⟩ => ⟨S1x3584x512, .bf16⟩
  | .hbm, ⟨40, _⟩ => ⟨S3584x512, .bf16⟩
  | .hbm, ⟨41, _⟩ => ⟨S1x512x512, .bf16⟩
  | .hbm, ⟨42, _⟩ => ⟨S512x512, .bf16⟩
  | .hbm, ⟨43, _⟩ => ⟨S1x512, .f32⟩
  | .hbm, ⟨44, _⟩ => ⟨S10000x512, .f32⟩
  | .hbm, ⟨45, _⟩ => ⟨S160000x1, .f32⟩
  | .hbm, ⟨46, _⟩ => ⟨S_, .i32⟩
  | .hbm, ⟨47, _⟩ => ⟨S160000, .i32⟩
  | .hbm, ⟨48, _⟩ => ⟨S160000, .i1⟩
  | .hbm, ⟨49, _⟩ => ⟨S_, .i32⟩
  | .hbm, ⟨50, _⟩ => ⟨S160000, .i32⟩
  | .hbm, ⟨51, _⟩ => ⟨S160000, .i32⟩
  | .hbm, ⟨52, _⟩ => ⟨S160000, .i32⟩
  | .hbm, ⟨53, _⟩ => ⟨S160000x1, .i32⟩
  | .hbm, ⟨54, _⟩ => ⟨S160000x512, .f32⟩
  | .hbm, ⟨55, _⟩ => ⟨S160000x512, .f32⟩
  | .hbm, ⟨56, _⟩ => ⟨S160000x512, .f32⟩
  | .hbm, ⟨57, _⟩ => ⟨S_, .f32⟩
  | .hbm, ⟨58, _⟩ => ⟨S70000x512, .f32⟩
  | .hbm, ⟨59, _⟩ => ⟨S160000x1, .i32⟩
  | .hbm, ⟨60, _⟩ => ⟨S70000x512, .f32⟩
  | .hbm, ⟨61, _⟩ => ⟨S10000x3584, .f32⟩
  | .hbm, ⟨62, _⟩ => ⟨S1x512, .f32⟩
  | .hbm, ⟨63, _⟩ => ⟨S512, .f32⟩
  | .hbm, ⟨64, _⟩ => ⟨S1x512, .f32⟩
  | .hbm, ⟨65, _⟩ => ⟨S512, .f32⟩
  | .hbm, ⟨66, _⟩ => ⟨S512, .f32⟩
  | .hbm, ⟨67, _⟩ => ⟨S10000x3584, .bf16⟩
  | .hbm, ⟨68, _⟩ => ⟨S10000x512, .bf16⟩
  | .hbm, ⟨69, _⟩ => ⟨S1x3584x512, .bf16⟩
  | .hbm, ⟨70, _⟩ => ⟨S3584x512, .bf16⟩
  | .hbm, ⟨71, _⟩ => ⟨S1x512x512, .bf16⟩
  | .hbm, ⟨72, _⟩ => ⟨S512x512, .bf16⟩
  | .hbm, ⟨73, _⟩ => ⟨S1x512, .f32⟩
  | .hbm, ⟨74, _⟩ => ⟨S10000x512, .f32⟩
  | .hbm, ⟨75, _⟩ => ⟨S160000x1, .f32⟩
  | .hbm, ⟨76, _⟩ => ⟨S_, .i32⟩
  | .hbm, ⟨77, _⟩ => ⟨S160000, .i32⟩
  | .hbm, ⟨78, _⟩ => ⟨S160000, .i1⟩
  | .hbm, ⟨79, _⟩ => ⟨S_, .i32⟩
  | .hbm, ⟨80, _⟩ => ⟨S160000, .i32⟩
  | .hbm, ⟨81, _⟩ => ⟨S160000, .i32⟩
  | .hbm, ⟨82, _⟩ => ⟨S160000, .i32⟩
  | .hbm, ⟨83, _⟩ => ⟨S160000x1, .i32⟩
  | .hbm, ⟨84, _⟩ => ⟨S160000x512, .f32⟩
  | .hbm, ⟨85, _⟩ => ⟨S160000x512, .f32⟩
  | .hbm, ⟨86, _⟩ => ⟨S160000x512, .f32⟩
  | .hbm, ⟨87, _⟩ => ⟨S_, .f32⟩
  | .hbm, ⟨88, _⟩ => ⟨S70000x512, .f32⟩
  | .hbm, ⟨89, _⟩ => ⟨S160000x1, .i32⟩
  | .hbm, ⟨90, _⟩ => ⟨S70000x512, .f32⟩
  | .hbm, ⟨91, _⟩ => ⟨S10000x3584, .f32⟩
  | .hbm, ⟨92, _⟩ => ⟨S1x512, .f32⟩
  | .hbm, ⟨93, _⟩ => ⟨S512, .f32⟩
  | .hbm, ⟨94, _⟩ => ⟨S1x512, .f32⟩
  | .hbm, ⟨95, _⟩ => ⟨S512, .f32⟩
  | .hbm, ⟨96, _⟩ => ⟨S512, .f32⟩
  | .hbm, ⟨97, _⟩ => ⟨S10000x3584, .bf16⟩
  | .hbm, ⟨98, _⟩ => ⟨S10000x512, .bf16⟩
  | .hbm, ⟨99, _⟩ => ⟨S1x3584x512, .bf16⟩
  | .hbm, ⟨100, _⟩ => ⟨S3584x512, .bf16⟩
  | .hbm, ⟨101, _⟩ => ⟨S1x512x512, .bf16⟩
  | .hbm, ⟨102, _⟩ => ⟨S512x512, .bf16⟩
  | .hbm, ⟨103, _⟩ => ⟨S1x512, .f32⟩
  | .hbm, ⟨104, _⟩ => ⟨S10000x512, .f32⟩
  | .hbm, ⟨105, _⟩ => ⟨S_, .f32⟩
  | .hbm, ⟨106, _⟩ => ⟨S512, .f32⟩
  | .local _ .vmem, ⟨0, _⟩ => ⟨S1000x3584, .bf16⟩
  | .local _ .vmem, ⟨1, _⟩ => ⟨S1000x3584, .bf16⟩
  | .local _ .vmem, ⟨2, _⟩ => ⟨S3584x512, .bf16⟩
  | .local _ .vmem, ⟨3, _⟩ => ⟨S1000x512, .bf16⟩
  | .local _ .vmem, ⟨4, _⟩ => ⟨S1000x512, .bf16⟩
  | .local _ .vmem, ⟨5, _⟩ => ⟨S512x512, .bf16⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x3584, .bf16⟩
  | .local _ .vmem, ⟨10, _⟩ => ⟨S1000x3584, .bf16⟩
  | .local _ .vmem, ⟨11, _⟩ => ⟨S3584x512, .bf16⟩
  | .local _ .vmem, ⟨12, _⟩ => ⟨S1000x512, .bf16⟩
  | .local _ .vmem, ⟨13, _⟩ => ⟨S1000x512, .bf16⟩
  | .local _ .vmem, ⟨14, _⟩ => ⟨S512x512, .bf16⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x3584, .bf16⟩
  | .local _ .vmem, ⟨19, _⟩ => ⟨S1000x3584, .bf16⟩
  | .local _ .vmem, ⟨20, _⟩ => ⟨S3584x512, .bf16⟩
  | .local _ .vmem, ⟨21, _⟩ => ⟨S1000x512, .bf16⟩
  | .local _ .vmem, ⟨22, _⟩ => ⟨S1000x512, .bf16⟩
  | .local _ .vmem, ⟨23, _⟩ => ⟨S512x512, .bf16⟩
  | .local _ .vmem, ⟨24, _⟩ => ⟨S1x512, .f32⟩
  | .local _ .vmem, ⟨25, _⟩ => ⟨S1000x512, .f32⟩
  | .local _ .vmem, ⟨26, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_5 : Ref sig .tc := ⟨.hbm, 76, rfl⟩
abbrev main_v60 : Ref sig .tc := ⟨.hbm, 77, rfl⟩
abbrev main_v61 : Ref sig .tc := ⟨.hbm, 78, rfl⟩
abbrev main_c_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_8 : Ref sig .tc := ⟨.hbm, 105, rfl⟩
abbrev main_v86 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3584x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x3584 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3584x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S70000x512 : S_.BroadcastsInDim S70000x512 (![] : Fin 0 → Fin S70000x512.rank)
  shapeCasts_S70000x512_S10000x3584 : S70000x512.ShapeCasts S10000x3584
  slices_S3x512_S1x512_0_0 : S3x512.Slices ![0, 0] S1x512
  shapeCasts_S1x512_S512 : S1x512.ShapeCasts S512
  slices_S3x3584x512_S1x3584x512_0_0_0 : S3x3584x512.Slices ![0, 0, 0] S1x3584x512
  shapeCasts_S1x3584x512_S3584x512 : S1x3584x512.ShapeCasts S3584x512
  slices_S3x512x512_S1x512x512_0_0_0 : S3x512x512.Slices ![0, 0, 0] S1x512x512
  shapeCasts_S1x512x512_S512x512 : S1x512x512.ShapeCasts S512x512
  shapeCasts_S512_S1x512 : S512.ShapeCasts S1x512
  inb_S1000x3584_S1000x3584_0_0 : ∀ a, (![0, 0] : Fin 2 → Nat) a + S1000x3584.size a ≤ S1000x3584.size a
  h_S1000x3584 : 0 < S1000x3584.numel
  shapeCasts_S1000x3584_S1000x3584 : S1000x3584.ShapeCasts S1000x3584
  inb_S3584x512_S3584x512_0_0 : ∀ a, (![0, 0] : Fin 2 → Nat) a + S3584x512.size a ≤ S3584x512.size a
  h_S3584x512 : 0 < S3584x512.numel
  shapeCasts_S3584x512_S3584x512 : S3584x512.ShapeCasts S3584x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S3x512_S1x512_1_0 : S3x512.Slices ![1, 0] S1x512
  slices_S3x3584x512_S1x3584x512_1_0_0 : S3x3584x512.Slices ![1, 0, 0] S1x3584x512
  slices_S3x512x512_S1x512x512_1_0_0 : S3x512x512.Slices ![1, 0, 0] S1x512x512
  slices_S3x512_S1x512_2_0 : S3x512.Slices ![2, 0] S1x512
  slices_S3x3584x512_S1x3584x512_2_0_0 : S3x3584x512.Slices ![2, 0, 0] S1x3584x512
  slices_S3x512x512_S1x512x512_2_0_0 : S3x512x512.Slices ![2, 0, 0] S1x512x512
  reducesTo_S10000x512_S512_d0 : S10000x512.ReducesTo [0] S512
  h_S_ : 0 < S_.numel
  gather_S10000x512_S160000x1_S160000x512_1_0_n_n_0_1_1512_wf : GatherDims.WF S10000x512 S160000x1 S160000x512 [1] [0] [] [0] [] 1 ![1, 512]
  scatter_S70000x512_S160000x1_S160000x512_1_0_0_1_wf : ScatterDims.WF S70000x512 S160000x1 S160000x512 [1] [0] [0] 1
  dot_S1000x3584_S3584x512_S1000x512_1_0_0_1_n_n_wf : DotDims.WF S1000x3584 S3584x512 S1000x512 [1] [0] [0] [1] [] []
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3584.size a ≤ S10000x3584.size a
  hwx0_0 : ∀ i : grid0.Coords, EltTy.bits .bf16 = 32 ∨ (Rect.block (s := S10000x3584) S1000x3584.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3584x512.size a ≤ S3584x512.size a
  hwx0_1 : ∀ i : grid0.Coords, EltTy.bits .bf16 = 32 ∨ (Rect.block (s := S3584x512) S3584x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .f32 = 32 ∨ (Rect.block (s := S10000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3584.size a ≤ S10000x3584.size a
  hwx1_0 : ∀ i : grid1.Coords, EltTy.bits .bf16 = 32 ∨ (Rect.block (s := S10000x3584) S1000x3584.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3584x512.size a ≤ S3584x512.size a
  hwx1_1 : ∀ i : grid1.Coords, EltTy.bits .bf16 = 32 ∨ (Rect.block (s := S3584x512) S3584x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .bf16 = 32 ∨ (Rect.block (s := S10000x512) S1000x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S10000x512.size a
  hwx1_5 : ∀ i : grid1.Coords, EltTy.bits .f32 = 32 ∨ (Rect.block (s := S10000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x3584.size a ≤ S10000x3584.size a
  hwx2_0 : ∀ i : grid2.Coords, EltTy.bits .bf16 = 32 ∨ (Rect.block (s := S10000x3584) S1000x3584.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3584x512.size a ≤ S3584x512.size a
  hwx2_1 : ∀ i : grid2.Coords, EltTy.bits .bf16 = 32 ∨ (Rect.block (s := S3584x512) S3584x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S10000x512.size a
  hwx2_2 : ∀ i : grid2.Coords, EltTy.bits .bf16 = 32 ∨ (Rect.block (s := S10000x512) S1000x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S10000x512.size a
  hwx2_5 : ∀ i : grid2.Coords, EltTy.bits .f32 = 32 ∨ (Rect.block (s := S10000x512) S1000x512.size (cc2_transform_5 i) (hinb2_5 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S70000x512_S160000x1_S160000x512_1_0_0_1 : ScatterDims S70000x512 S160000x1 S160000x512 where
  updateWindowDims := [1]
  insertedWindowDims := [0]
  scatterDimsToOperandDims := [0]
  indexVectorDim := 1
  wf := scatter_S70000x512_S160000x1_S160000x512_1_0_0_1_wf
def dot_S1000x3584_S3584x512_S1000x512_1_0_0_1_n_n : DotDims S1000x3584 S3584x512 S1000x512 where
  lhsContracting := [1]
  rhsContracting := [0]
  lhsNonContracting := [0]
  rhsNonContracting := [1]
  lhsBatch := []
  rhsBatch := []
  wf := dot_S1000x3584_S3584x512_S1000x512_1_0_0_1_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v24) S1000x3584.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S3584x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S1000x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S3584x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v78) S1000x3584.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S3584x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v83) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000 : Shape := ⟨1, ![160000]⟩
abbrev S3x3584x512 : Shape := ⟨3, ![3, 3584, 512]⟩
abbrev S3x512 : Shape := ⟨2, ![3, 512]⟩
abbrev S3x512x512 : Shape := ⟨3, ![3, 512, 512]⟩
abbrev S_ : Shape := ⟨0, ![]⟩
abbrev S160000x1 : Shape := ⟨2, ![160000, 1]⟩
abbrev S160000x512 : Shape := ⟨2, ![160000, 512]⟩
abbrev S70000x512 : Shape := ⟨2, ![70000, 512]⟩
abbrev S10000x3584 : Shape := ⟨2, ![10000, 3584]⟩
abbrev S1x3584x512 : Shape := ⟨3, ![1, 3584, 512]⟩
abbrev S3584x512 : Shape := ⟨2, ![3584, 512]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩

abbrev nBuf : Space → Nat
  | .hbm => 126
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S3x3584x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x512, .f32⟩
  | .hbm, ⟨23, _⟩ => ⟨S160000x512, .f32⟩
  | .hbm, ⟨24, _⟩ => ⟨S160000x512, .f32⟩
  | .hbm, ⟨25, _⟩ => ⟨S_, .f32⟩
  | .hbm, ⟨26, _⟩ => ⟨S70000x512, .f32⟩
  | .hbm, ⟨27, _⟩ => ⟨S160000x1, .i32⟩
  | .hbm, ⟨28, _⟩ => ⟨S70000x512, .f32⟩
  | .hbm, ⟨29, _⟩ => ⟨S10000x3584, .f32⟩
  | .hbm, ⟨30, _⟩ => ⟨S1x3584x512, .f32⟩
  | .hbm, ⟨31, _⟩ => ⟨S3584x512, .f32⟩
  | .hbm, ⟨32, _⟩ => ⟨S10000x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S10000x512, .f32⟩
  | .hbm, ⟨37, _⟩ => ⟨S10000x512, .f32⟩
  | .hbm, ⟨38, _⟩ => ⟨S1x512x512, .f32⟩
  | .hbm, ⟨39, _⟩ => ⟨S512x512, .f32⟩
  | .hbm, ⟨40, _⟩ => ⟨S10000x512, .f32⟩
  | .hbm, ⟨41, _⟩ => ⟨S10000x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S10000x512, .f32⟩
  | .hbm, ⟨46, _⟩ => ⟨S10000x512, .f32⟩
  | .hbm, ⟨47, _⟩ => ⟨S_, .f32⟩
  | .hbm, ⟨48, _⟩ => ⟨S10000x512, .f32⟩
  | .hbm, ⟨49, _⟩ => ⟨S10000x512, .f32⟩
  | .hbm, ⟨50, _⟩ => ⟨S160000x1, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S160000x512, .f32⟩
  | .hbm, ⟨61, _⟩ => ⟨S160000x512, .f32⟩
  | .hbm, ⟨62, _⟩ => ⟨S_, .f32⟩
  | .hbm, ⟨63, _⟩ => ⟨S70000x512, .f32⟩
  | .hbm, ⟨64, _⟩ => ⟨S160000x1, .i32⟩
  | .hbm, ⟨65, _⟩ => ⟨S70000x512, .f32⟩
  | .hbm, ⟨66, _⟩ => ⟨S10000x3584, .f32⟩
  | .hbm, ⟨67, _⟩ => ⟨S1x3584x512, .f32⟩
  | .hbm, ⟨68, _⟩ => ⟨S3584x512, .f32⟩
  | .hbm, ⟨69, _⟩ => ⟨S10000x512, .f32⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S10000x512, .f32⟩
  | .hbm, ⟨74, _⟩ => ⟨S10000x512, .f32⟩
  | .hbm, ⟨75, _⟩ => ⟨S1x512x512, .f32⟩
  | .hbm, ⟨76, _⟩ => ⟨S512x512, .f32⟩
  | .hbm, ⟨77, _⟩ => ⟨S10000x512, .f32⟩
  | .hbm, ⟨78, _⟩ => ⟨S10000x512, .f32⟩
  | .hbm, ⟨79, _⟩ => ⟨S1x512, .f32⟩
  | .hbm, ⟨80, _⟩ => ⟨S512, .f32⟩
  | .hbm, ⟨81, _⟩ => ⟨S1x512, .f32⟩
  | .hbm, ⟨82, _⟩ => ⟨S10000x512, .f32⟩
  | .hbm, ⟨83, _⟩ => ⟨S10000x512, .f32⟩
  | .hbm, ⟨84, _⟩ => ⟨S_, .f32⟩
  | .hbm, ⟨85, _⟩ => ⟨S10000x512, .f32⟩
  | .hbm, ⟨86, _⟩ => ⟨S10000x512, .f32⟩
  | .hbm, ⟨87, _⟩ => ⟨S160000x1, .f32⟩
  | .hbm, ⟨88, _⟩ => ⟨S_, .i32⟩
  | .hbm, ⟨89, _⟩ => ⟨S160000, .i32⟩
  | .hbm, ⟨90, _⟩ => ⟨S160000, .i1⟩
  | .hbm, ⟨91, _⟩ => ⟨S_, .i32⟩
  | .hbm, ⟨92, _⟩ => ⟨S160000, .i32⟩
  | .hbm, ⟨93, _⟩ => ⟨S160000, .i32⟩
  | .hbm, ⟨94, _⟩ => ⟨S160000, .i32⟩
  | .hbm, ⟨95, _⟩ => ⟨S160000x1, .i32⟩
  | .hbm, ⟨96, _⟩ => ⟨S160000x512, .f32⟩
  | .hbm, ⟨97, _⟩ => ⟨S160000x512, .f32⟩
  | .hbm, ⟨98, _⟩ => ⟨S160000x512, .f32⟩
  | .hbm, ⟨99, _⟩ => ⟨S_, .f32⟩
  | .hbm, ⟨100, _⟩ => ⟨S70000x512, .f32⟩
  | .hbm, ⟨101, _⟩ => ⟨S160000x1, .i32⟩
  | .hbm, ⟨102, _⟩ => ⟨S70000x512, .f32⟩
  | .hbm, ⟨103, _⟩ => ⟨S10000x3584, .f32⟩
  | .hbm, ⟨104, _⟩ => ⟨S1x3584x512, .f32⟩
  | .hbm, ⟨105, _⟩ => ⟨S3584x512, .f32⟩
  | .hbm, ⟨106, _⟩ => ⟨S10000x512, .f32⟩
  | .hbm, ⟨107, _⟩ => ⟨S1x512, .f32⟩
  | .hbm, ⟨108, _⟩ => ⟨S512, .f32⟩
  | .hbm, ⟨109, _⟩ => ⟨S1x512, .f32⟩
  | .hbm, ⟨110, _⟩ => ⟨S10000x512, .f32⟩
  | .hbm, ⟨111, _⟩ => ⟨S10000x512, .f32⟩
  | .hbm, ⟨112, _⟩ => ⟨S1x512x512, .f32⟩
  | .hbm, ⟨113, _⟩ => ⟨S512x512, .f32⟩
  | .hbm, ⟨114, _⟩ => ⟨S10000x512, .f32⟩
  | .hbm, ⟨115, _⟩ => ⟨S10000x512, .f32⟩
  | .hbm, ⟨116, _⟩ => ⟨S1x512, .f32⟩
  | .hbm, ⟨117, _⟩ => ⟨S512, .f32⟩
  | .hbm, ⟨118, _⟩ => ⟨S1x512, .f32⟩
  | .hbm, ⟨119, _⟩ => ⟨S10000x512, .f32⟩
  | .hbm, ⟨120, _⟩ => ⟨S10000x512, .f32⟩
  | .hbm, ⟨121, _⟩ => ⟨S_, .f32⟩
  | .hbm, ⟨122, _⟩ => ⟨S10000x512, .f32⟩
  | .hbm, ⟨123, _⟩ => ⟨S10000x512, .f32⟩
  | .hbm, ⟨124, _⟩ => ⟨S_, .f32⟩
  | .hbm, ⟨125, _⟩ => ⟨S512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_c_2 : Ref sig .tc := ⟨.hbm, 51, rfl⟩
abbrev main_v36 : Ref sig .tc := ⟨.hbm, 52, rfl⟩
abbrev main_v37 : Ref sig .tc := ⟨.hbm, 53, rfl⟩
abbrev main_c_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call1_cst : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩
abbrev main_c_5 : Ref sig .tc := ⟨.hbm, 88, rfl⟩
abbrev main_v68 : Ref sig .tc := ⟨.hbm, 89, rfl⟩
abbrev main_v69 : Ref sig .tc := ⟨.hbm, 90, rfl⟩
abbrev main_c_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_call2_cst : Ref sig .tc := ⟨.hbm, 121, rfl⟩
abbrev main_call2_v0 : Ref sig .tc := ⟨.hbm, 122, rfl⟩
abbrev main_v98 : Ref sig .tc := ⟨.hbm, 123, rfl⟩
abbrev main_cst_8 : Ref sig .tc := ⟨.hbm, 124, rfl⟩
abbrev main_v99 : Ref sig .tc := ⟨.hbm, 125, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S70000x512 : S_.BroadcastsInDim S70000x512 (![] : Fin 0 → Fin S70000x512.rank)
  shapeCasts_S70000x512_S10000x3584 : S70000x512.ShapeCasts S10000x3584
  slices_S3x3584x512_S1x3584x512_0_0_0 : S3x3584x512.Slices ![0, 0, 0] S1x3584x512
  shapeCasts_S1x3584x512_S3584x512 : S1x3584x512.ShapeCasts S3584x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S3x512x512_S1x512x512_0_0_0 : S3x512x512.Slices ![0, 0, 0] S1x512x512
  shapeCasts_S1x512x512_S512x512 : S1x512x512.ShapeCasts S512x512
  bcast_S_S10000x512 : S_.BroadcastsInDim S10000x512 (![] : Fin 0 → Fin S10000x512.rank)
  slices_S3x3584x512_S1x3584x512_1_0_0 : S3x3584x512.Slices ![1, 0, 0] S1x3584x512
  slices_S3x512_S1x512_1_0 : S3x512.Slices ![1, 0] S1x512
  slices_S3x512x512_S1x512x512_1_0_0 : S3x512x512.Slices ![1, 0, 0] S1x512x512
  slices_S3x3584x512_S1x3584x512_2_0_0 : S3x3584x512.Slices ![2, 0, 0] S1x3584x512
  slices_S3x512_S1x512_2_0 : S3x512.Slices ![2, 0] S1x512
  slices_S3x512x512_S1x512x512_2_0_0 : S3x512x512.Slices ![2, 0, 0] S1x512x512
  reducesTo_S10000x512_S512_d0 : S10000x512.ReducesTo [0] S512
  h_S_ : 0 < S_.numel
  gather_S10000x512_S160000x1_S160000x512_1_0_n_n_0_1_1512_wf : GatherDims.WF S10000x512 S160000x1 S160000x512 [1] [0] [] [0] [] 1 ![1, 512]
  scatter_S70000x512_S160000x1_S160000x512_1_0_0_1_wf : ScatterDims.WF S70000x512 S160000x1 S160000x512 [1] [0] [0] 1
  dot_S10000x3584_S3584x512_S10000x512_1_0_0_1_n_n_wf : DotDims.WF S10000x3584 S3584x512 S10000x512 [1] [0] [0] [1] [] []
  dot_S10000x512_S512x512_S10000x512_1_0_0_1_n_n_wf : DotDims.WF S10000x512 S512x512 S10000x512 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S70000x512_S160000x1_S160000x512_1_0_0_1 : ScatterDims S70000x512 S160000x1 S160000x512 where
  updateWindowDims := [1]
  insertedWindowDims := [0]
  scatterDimsToOperandDims := [0]
  indexVectorDim := 1
  wf := scatter_S70000x512_S160000x1_S160000x512_1_0_0_1_wf
def dot_S10000x3584_S3584x512_S10000x512_1_0_0_1_n_n : DotDims S10000x3584 S3584x512 S10000x512 where
  lhsContracting := [1]
  rhsContracting := [0]
  lhsNonContracting := [0]
  rhsNonContracting := [1]
  lhsBatch := []
  rhsBatch := []
  wf := dot_S10000x3584_S3584x512_S10000x512_1_0_0_1_n_n_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Combine.lean ====
/-
  One layer's dense step, as a function of whole arrays, entry by entry.

  With  U  the aggregated messages ([n, 3584]),  H  the node features ([n, 512]) and the layer's two weight matrices
   Wl  ([3584, 512]),  Ws  ([512, 512]), an output entry (r, v) is

      max ( (U · Wl)(r, v) + (H · Ws)(r, v) + bias(v) ,  0 ).

  The two programs spell the bias differently. One adds the two bias rows first and adds their sum  B  last:
  ((U · Wl) + (H · Ws)) + (bl + bs).  The other adds  bl  right after the first product and  bs  at the end:
  (((U · Wl) + bl) + (H · Ws)) + bs.  Addition of extended reals is commutative and associative, with no exception at
  the infinities (bottom absorbs on either side of either grouping), so the two are the same extended real.

  The number of rows  n  is a parameter: the same formula is a block of rows of the array and the whole array.
-/
import Idealize.ShloMosaic.PureOps.Ideal.Laws
import Idealize.ShloMosaic.Lib.ValueIdx

noncomputable section

open scoped BigOperators

namespace Cert.Combine

open Idealize.ShloMosaic Idealize.ShloMosaic.ValueIdx

variable {n : Nat}

/-- Entry (r, v) of the layer with the summed bias row  B  ([1, 512]) added last. -/
def fusedAt (U : (⟨2, ![n, 3584]⟩ : Shape).Idx → EReal) (Wl : (⟨2, ![3584, 512]⟩ : Shape).Idx → EReal)
    (H : (⟨2, ![n, 512]⟩ : Shape).Idx → EReal) (Ws : (⟨2, ![512, 512]⟩ : Shape).Idx → EReal)
    (B : (⟨2, ![1, 512]⟩ : Shape).Idx → EReal) (r : Fin n) (v : Fin 512) : EReal :=
  max ((∑ q : Fin 3584, U (ix2 r q) * Wl (ix2 q v) + ∑ q : Fin 512, H (ix2 r q) * Ws (ix2 q v)) + B (ix2 0 v)) 0

/-- Entry (r, v) of the layer with the bias vectors  bl ,  bs  ([512]) added one after each product. -/
def layeredAt (U : (⟨2, ![n, 3584]⟩ : Shape).Idx → EReal) (Wl : (⟨2, ![3584, 512]⟩ : Shape).Idx → EReal)
    (H : (⟨2, ![n, 512]⟩ : Shape).Idx → EReal) (Ws : (⟨2, ![512, 512]⟩ : Shape).Idx → EReal)
    (bl bs : (⟨1, ![512]⟩ : Shape).Idx → EReal) (r : Fin n) (v : Fin 512) : EReal :=
  max (((∑ q : Fin 3584, U (ix2 r q) * Wl (ix2 q v) + bl (ix1 v)) + ∑ q : Fin 512, H (ix2 r q) * Ws (ix2 q v)) + bs (ix1 v)) 0

/-- The layer as an array, summed bias last. -/
def fused (U : (⟨2, ![n, 3584]⟩ : Shape).Idx → EReal) (Wl : (⟨2, ![3584, 512]⟩ : Shape).Idx → EReal)
    (H : (⟨2, ![n, 512]⟩ : Shape).Idx → EReal) (Ws : (⟨2, ![512, 512]⟩ : Shape).Idx → EReal)
    (B : (⟨2, ![1, 512]⟩ : Shape).Idx → EReal) : (⟨2, ![n, 512]⟩ : Shape).Idx → EReal :=
  fun i => fusedAt U Wl H Ws B (i 0) (i 1)

/-- The layer as an array, a bias vector after each product. -/
def layered (U : (⟨2, ![n, 3584]⟩ : Shape).Idx → EReal) (Wl : (⟨2, ![3584, 512]⟩ : Shape).Idx → EReal)
    (H : (⟨2, ![n, 512]⟩ : Shape).Idx → EReal) (Ws : (⟨2, ![512, 512]⟩ : Shape).Idx → EReal)
    (bl bs : (⟨1, ![512]⟩ : Shape).Idx → EReal) : (⟨2, ![n, 512]⟩ : Shape).Idx → EReal :=
  fun i => layeredAt U Wl H Ws bl bs (i 0) (i 1)

/-- (a + b) + (c + d) = ((a + c) + b) + d  in the extended reals: commutativity and associativity only. -/
theorem regroup (a b c d : EReal) : a + b + (c + d) = a + c + b + d := by
  rw [add_add_add_comm, ← add_assoc]

/-- When  B  is the entrywise sum of  bl  and  bs , the two spellings of the layer agree at every entry. -/
theorem fused_eq_layered (U : (⟨2, ![n, 3584]⟩ : Shape).Idx → EReal) (Wl : (⟨2, ![3584, 512]⟩ : Shape).Idx → EReal)
    (H : (⟨2, ![n, 512]⟩ : Shape).Idx → EReal) (Ws : (⟨2, ![512, 512]⟩ : Shape).Idx → EReal)
    (B : (⟨2, ![1, 512]⟩ : Shape).Idx → EReal) (bl bs : (⟨1, ![512]⟩ : Shape).Idx → EReal)
    (hB : ∀ v : Fin 512, B (ix2 0 v) = bl (ix1 v) + bs (ix1 v)) :
    fused U Wl H Ws B = layered U Wl H Ws bl bs := by
  funext i
  show fusedAt U Wl H Ws B (i 0) (i 1) = layeredAt U Wl H Ws bl bs (i 0) (i 1)
  generalize i 0 = r
  generalize i 1 = v
  unfold fusedAt layeredAt
  rw [hB v, regroup]

/-- A block of rows of the layer is the layer of the blocks: if  u ,  h  hold row  R  of  U ,  H  in their row  r , and
    wl ,  ws ,  b  agree with  Wl ,  Ws ,  B  on column  v , the layer of the blocks at  (r, v)  is the layer of the arrays
    at  (R, v). -/
theorem fusedAt_blocks {N : Nat} (U : (⟨2, ![N, 3584]⟩ : Shape).Idx → EReal) (Wl : (⟨2, ![3584, 512]⟩ : Shape).Idx → EReal)
    (H : (⟨2, ![N, 512]⟩ : Shape).Idx → EReal) (Ws : (⟨2, ![512, 512]⟩ : Shape).Idx → EReal)
    (B : (⟨2, ![1, 512]⟩ : Shape).Idx → EReal)
    (u : (⟨2, ![n, 3584]⟩ : Shape).Idx → EReal) (wl : (⟨2, ![3584, 512]⟩ : Shape).Idx → EReal)
    (h : (⟨2, ![n, 512]⟩ : Shape).Idx → EReal) (ws : (⟨2, ![512, 512]⟩ : Shape).Idx → EReal)
    (b : (⟨2, ![1, 512]⟩ : Shape).Idx → EReal) (r : Fin n) (R : Fin N) (v : Fin 512)
    (hu : ∀ q, u (ix2 r q) = U (ix2 R q)) (hwl : ∀ q, wl (ix2 q v) = Wl (ix2 q v))
    (hh : ∀ q, h (ix2 r q) = H (ix2 R q)) (hws : ∀ q, ws (ix2 q v) = Ws (ix2 q v))
    (hb : b (ix2 0 v) = B (ix2 0 v)) :
    fusedAt u wl h ws b r v = fusedAt U Wl H Ws B R v := by
  unfold fusedAt
  simp only [hu, hwl, hh, hws, hb]

end Cert.Combine

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Payload.lean ====
/-
  What one grid point of the dense step computes, at the ideal values.

  The kernel body loads a block  u  of 1000 rows of the aggregated messages, the block  h  of the same 1000 rows of the
  node features, the layer's two weight matrices and the summed bias row, and stores

      max ( (u · Wl + h · Ws) + bias , 0 )

  with both products accumulated into zero. Read at an entry (r, v), each product is the plain sum over the shared
  axis (the rows-by-columns lemma), the bias row is broadcast down the rows, and the zero it is compared with is the
  extended real 0: the stored block is the layer function of the loaded blocks. The three launches run the same body.
-/
import proofs.«146694_j781684048169_1_alg».proof.Proof.Gen.KernelIdeal.Skeleton
import proofs.«146694_j781684048169_1_alg».proof.Proof.Combine
import proofs.«146694_j781684048169_1_alg».proof.Proof.LibDotRowsCols
import Idealize.ShloMosaic.Lib.Pipeline.Value

noncomputable section

open scoped BigOperators

namespace Cert.Payload

open Idealize.ShloMosaic Idealize.ShloMosaic.ValueIdx Cert.KernelIdeal Cert.KernelIdeal.Gen Cert.Lib.DotRowsCols Cert.Combine

/-- The first product's dimension numbers are those of a rows-by-columns product. -/
theorem rowsCols_wl : RowsCols dot_S1000x3584_S3584x512_S1000x512_1_0_0_1_n_n := ⟨rfl, rfl, rfl, rfl, rfl, rfl⟩

/-- The second product's dimension numbers are those of a rows-by-columns product. -/
theorem rowsCols_ws : RowsCols dot_S1000x512_S512x512_S1000x512_1_0_0_1_n_n := ⟨rfl, rfl, rfl, rfl, rfl, rfl⟩

/-- The bias row broadcast down the rows, at (r, v), is the row's entry v. -/
theorem bias_rows (b : Vec Ideal S1x512 .f32) (r : Fin 1000) (v : Fin 512) :
    broadcastTo S1000x512 b Facts₀.broadcasts_S1x512_S1000x512 (ix2 r v) = b (ix2 0 v) := by
  refine broadcastTo_apply b _ (ix2 r v) (ix2 0 v) (fun a => ?_)
  match a with
  | ⟨0, _⟩ => rfl
  | ⟨1, _⟩ => rfl

/-- The stored block at (r, v): the layer's entry of the loaded blocks. -/
theorem pay_at (x0 : Vec Ideal S1000x3584 .bf16) (x1 : Vec Ideal S3584x512 .bf16) (x2 : Vec Ideal S1000x512 .bf16)
    (x3 : Vec Ideal S512x512 .bf16) (x4 : Vec Ideal S1x512 .f32) (r : Fin 1000) (v : Fin 512) :
    k0_pay1 (F := Ideal) x0 x1 x2 x3 x4 (ix2 r v) = fusedAt (n := 1000) x0 x1 x2 x3 x4 r v := by
  unfold k0_pay1 fusedAt
  simp only [shapeCast_self]
  rw [maximumf_apply, addf_apply, addf_apply, rowsCols_wl.matmul_zero_apply, rowsCols_ws.matmul_zero_apply, bias_rows,
    broadcast_apply]
  show max _ (Ideal.ofBits .f32 0x00000000#32) = _
  rw [Ideal.ofBits_zero_f32]

/-- The stored block is the layer function of the loaded blocks. -/
theorem pay_eq (x0 : Vec Ideal S1000x3584 .bf16) (x1 : Vec Ideal S3584x512 .bf16) (x2 : Vec Ideal S1000x512 .bf16)
    (x3 : Vec Ideal S512x512 .bf16) (x4 : Vec Ideal S1x512 .f32) :
    k0_pay1 (F := Ideal) x0 x1 x2 x3 x4 = fused (n := 1000) x0 x1 x2 x3 x4 := by
  funext i
  obtain ⟨r, v, rfl⟩ : ∃ (r : Fin 1000) (v : Fin 512), i = ix2 r v := ⟨i 0, i 1, eq_ix2 i⟩
  exact pay_at x0 x1 x2 x3 x4 r v

/-- The second launch runs the same body. -/
theorem pay1_eq (x0 : Vec Ideal S1000x3584 .bf16) (x1 : Vec Ideal S3584x512 .bf16) (x2 : Vec Ideal S1000x512 .bf16)
    (x3 : Vec Ideal S512x512 .bf16) (x4 : Vec Ideal S1x512 .f32) :
    k1_pay1 (F := Ideal) x0 x1 x2 x3 x4 = fused (n := 1000) x0 x1 x2 x3 x4 := pay_eq x0 x1 x2 x3 x4

/-- The third launch runs the same body. -/
theorem pay2_eq (x0 : Vec Ideal S1000x3584 .bf16) (x1 : Vec Ideal S3584x512 .bf16) (x2 : Vec Ideal S1000x512 .bf16)
    (x3 : Vec Ideal S512x512 .bf16) (x4 : Vec Ideal S1x512 .f32) :
    k2_pay1 (F := Ideal) x0 x1 x2 x3 x4 = fused (n := 1000) x0 x1 x2 x3 x4 := pay_eq x0 x1 x2 x3 x4

end Cert.Payload

end
-- ==== Proof.Region0.lean ====
/-
  The first launch of the dense step, read as a value.

  The launch runs ten grid points. Point t loads rows 1000 t … 1000 t + 999 of the aggregated messages and of the node
  features, the two weight matrices and the summed bias row whole, and writes back rows 1000 t … 1000 t + 999 of the
  result. What it writes is the layer function of what it loaded, and a block of rows of the layer function of the
  arrays is the layer function of the blocks; the ten blocks tile the 10000 rows. So after the launch the result array
  is the layer function of the arrays the launch was entered with, whatever those are.
-/
import proofs.«146694_j781684048169_1_alg».proof.Proof.Gen.KernelIdeal.Frame
import proofs.«146694_j781684048169_1_alg».proof.Proof.Payload
import Idealize.ShloMosaic.Lib.Pipeline.Value

set_option maxRecDepth 16384

noncomputable section

namespace Cert.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t takes rows 1000 t … 1000 t + 999 of the messages, of the features and of the
    result, all columns; the two weight matrices and the bias row are taken whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays as the region finds them. -/
abbrev result (c : Dev nD) : (⟨2, ![10000, 512]⟩ : Shape).Idx → EReal :=
  fused (n := 10000) (V c main_v24) (V c main_v27) (V c main_v25) (V c main_v29) (V c main_v30)

/-- What point t writes back is rows 1000 t … 1000 t + 999 of the layer of the whole arrays: the body's block is the
    layer of the loaded blocks, and each loaded block is the rows (or the whole) of its array that the index maps say. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S1000x3584) hz, View.ld_unit_zero (S := S3584x512) hz, View.ld_unit_zero (S := S1000x512) hz,
    View.ld_unit_zero (S := S512x512) hz, View.ld_unit_zero (S := S1x512) hz]
  rw [Cert.Payload.pay_eq]
  funext j
  have hj0 : (j 0).val < 1000 := (j 0).isLt
  have hj1 : (j 1).val < 512 := (j 1).isLt
  have ht : t.val < 10 := N_0 ▸ t.isLt
  obtain ⟨e00, e01, e10, e11, e20, e21, e30, e31, e40, e41, e50, e51⟩ := idx_facts t
  have hE : ((cfg0.win 5).blk t).view.emb j = ix2 (⟨t.val * 1000 + (j 0).val, by omega⟩ : Fin 10000) (⟨(j 1).val, hj1⟩ : Fin 512) := by
    funext a; apply Fin.ext
    match a with
    | ⟨0, _⟩ => show win0_5.index t (0 : Fin 2) * 1000 + 1 * (j 0).val = t.val * 1000 + (j 0).val; omega
    | ⟨1, _⟩ => show win0_5.index t (1 : Fin 2) * 512 + 1 * (j 1).val = (j 1).val; omega
  show fused (n := 1000) (iblk0 V c 0 t) (iblk0 V c 1 t) (iblk0 V c 2 t) (iblk0 V c 3 t) (iblk0 V c 4 t) ((win0 5).xinj (grid0.coords t) j)
    = result V c (((cfg0.win 5).blk t).view.emb j)
  rw [hE]
  show fusedAt (n := 1000) (iblk0 V c 0 t) (iblk0 V c 1 t) (iblk0 V c 2 t) (iblk0 V c 3 t) (iblk0 V c 4 t) ⟨(j 0).val, hj0⟩ ⟨(j 1).val, hj1⟩
    = fusedAt (n := 10000) (V c main_v24) (V c main_v27) (V c main_v25) (V c main_v29) (V c main_v30) ⟨t.val * 1000 + (j 0).val, by omega⟩ ⟨(j 1).val, hj1⟩
  refine fusedAt_blocks _ _ _ _ _ _ _ _ _ _ _ _ _ ?_ ?_ ?_ ?_ ?_
  · intro q
    show V c main_v24 (((cfg0.win 0).blk t).view.emb (ix2 (⟨(j 0).val, hj0⟩ : Fin 1000) q)) = _
    refine congrArg _ (funext fun a => Fin.ext ?_)
    match a with
    | ⟨0, _⟩ => show win0_0.index t (0 : Fin 2) * 1000 + 1 * (j 0).val = t.val * 1000 + (j 0).val; omega
    | ⟨1, _⟩ => show win0_0.index t (1 : Fin 2) * 3584 + 1 * q.val = q.val; omega
  · intro q
    show V c main_v27 (((cfg0.win 1).blk t).view.emb (ix2 q (⟨(j 1).val, hj1⟩ : Fin 512))) = _
    refine congrArg _ (funext fun a => Fin.ext ?_)
    match a with
    | ⟨0, _⟩ => show win0_1.index t (0 : Fin 2) * 3584 + 1 * q.val = q.val; omega
    | ⟨1, _⟩ => show win0_1.index t (1 : Fin 2) * 512 + 1 * (j 1).val = (j 1).val; omega
  · intro q
    show V c main_v25 (((cfg0.win 2).blk t).view.emb (ix2 (⟨(j 0).val, hj0⟩ : Fin 1000) q)) = _
    refine congrArg _ (funext fun a => Fin.ext ?_)
    match a with
    | ⟨0, _⟩ => show win0_2.index t (0 : Fin 2) * 1000 + 1 * (j 0).val = t.val * 1000 + (j 0).val; omega
    | ⟨1, _⟩ => show win0_2.index t (1 : Fin 2) * 512 + 1 * q.val = q.val; omega
  · intro q
    show V c main_v29 (((cfg0.win 3).blk t).view.emb (ix2 q (⟨(j 1).val, hj1⟩ : Fin 512))) = _
    refine congrArg _ (funext fun a => Fin.ext ?_)
    match a with
    | ⟨0, _⟩ => show win0_3.index t (0 : Fin 2) * 512 + 1 * q.val = q.val; omega
    | ⟨1, _⟩ => show win0_3.index t (1 : Fin 2) * 512 + 1 * (j 1).val = (j 1).val; omega
  · show V c main_v30 (((cfg0.win 4).blk t).view.emb (ix2 (0 : Fin 1) (⟨(j 1).val, hj1⟩ : Fin 512))) = _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * (j 1).val = (j 1).val; omega

/-- An index of the result array is in point t's block iff each coordinate is in the block's range on its axis. -/
theorem mem_blk (t : Fin cfg0.N) (i : S10000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v31).slice (win0_5.rect t)).set ↔ _
  rw [View.set_slice_whole, Rect.mem_set_unit]
  exact Iff.rfl

/-- The ten blocks of 1000 rows tile the result array: row r is in the block of point r / 1000. -/
theorem cover (i : S10000x512.Idx) : ∃ t : Fin cfg0.N, (cfg0.win 5).flush t = true ∧ i ∈ ((cfg0.win 5).blk t).view.set := by
  have hi0 : (i 0).val < 10000 := (i 0).isLt
  have hi1 : (i 1).val < 512 := (i 1).isLt
  let t : Fin cfg0.N := ⟨(i 0).val / 1000, by rw [show cfg0.N = 10 from N_0]; omega⟩
  obtain ⟨-, -, -, -, -, -, -, -, -, -, e50, e51⟩ := idx_facts t
  have htv : t.val = (i 0).val / 1000 := rfl
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-- The result array after the region: the layer of the arrays the region was entered with. -/
theorem final (c : Dev nD) : (dat0 V c).arrAt 5 cfg0.N = result V c :=
  (dat0 V c).arrAt_eq_of_cover 5 (result V c) (fun t _ => flushed_eq V c t) cover

end Cert.Region0

end
-- ==== Proof.Region1.lean ====
/-
  The second launch of the dense step, read as a value.

  The launch runs ten grid points. Point t loads rows 1000 t … 1000 t + 999 of the aggregated messages and of the node
  features, the two weight matrices and the summed bias row whole, and writes back rows 1000 t … 1000 t + 999 of the
  result. What it writes is the layer function of what it loaded, and a block of rows of the layer function of the
  arrays is the layer function of the blocks; the ten blocks tile the 10000 rows. So after the launch the result array
  is the layer function of the arrays the launch was entered with, whatever those are.
-/
import proofs.«146694_j781684048169_1_alg».proof.Proof.Gen.KernelIdeal.Frame
import proofs.«146694_j781684048169_1_alg».proof.Proof.Payload
import Idealize.ShloMosaic.Lib.Pipeline.Value

set_option maxRecDepth 16384

noncomputable section

namespace Cert.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t takes rows 1000 t … 1000 t + 999 of the messages, of the features and of the
    result, all columns; the two weight matrices and the bias row are taken whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays as the region finds them. -/
abbrev result (c : Dev nD) : (⟨2, ![10000, 512]⟩ : Shape).Idx → EReal :=
  fused (n := 10000) (V c main_v51) (V c main_v54) (V c main_v52) (V c main_v56) (V c main_v57)

/-- What point t writes back is rows 1000 t … 1000 t + 999 of the layer of the whole arrays: the body's block is the
    layer of the loaded blocks, and each loaded block is the rows (or the whole) of its array that the index maps say. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S1000x3584) hz, View.ld_unit_zero (S := S3584x512) hz, View.ld_unit_zero (S := S1000x512) hz,
    View.ld_unit_zero (S := S512x512) hz, View.ld_unit_zero (S := S1x512) hz]
  rw [Cert.Payload.pay1_eq]
  funext j
  have hj0 : (j 0).val < 1000 := (j 0).isLt
  have hj1 : (j 1).val < 512 := (j 1).isLt
  have ht : t.val < 10 := N_1 ▸ t.isLt
  obtain ⟨e00, e01, e10, e11, e20, e21, e30, e31, e40, e41, e50, e51⟩ := idx_facts t
  have hE : ((cfg1.win 5).blk t).view.emb j = ix2 (⟨t.val * 1000 + (j 0).val, by omega⟩ : Fin 10000) (⟨(j 1).val, hj1⟩ : Fin 512) := by
    funext a; apply Fin.ext
    match a with
    | ⟨0, _⟩ => show win1_5.index t (0 : Fin 2) * 1000 + 1 * (j 0).val = t.val * 1000 + (j 0).val; omega
    | ⟨1, _⟩ => show win1_5.index t (1 : Fin 2) * 512 + 1 * (j 1).val = (j 1).val; omega
  show fused (n := 1000) (iblk1 V c 0 t) (iblk1 V c 1 t) (iblk1 V c 2 t) (iblk1 V c 3 t) (iblk1 V c 4 t) ((win1 5).xinj (grid1.coords t) j)
    = result V c (((cfg1.win 5).blk t).view.emb j)
  rw [hE]
  show fusedAt (n := 1000) (iblk1 V c 0 t) (iblk1 V c 1 t) (iblk1 V c 2 t) (iblk1 V c 3 t) (iblk1 V c 4 t) ⟨(j 0).val, hj0⟩ ⟨(j 1).val, hj1⟩
    = fusedAt (n := 10000) (V c main_v51) (V c main_v54) (V c main_v52) (V c main_v56) (V c main_v57) ⟨t.val * 1000 + (j 0).val, by omega⟩ ⟨(j 1).val, hj1⟩
  refine fusedAt_blocks _ _ _ _ _ _ _ _ _ _ _ _ _ ?_ ?_ ?_ ?_ ?_
  · intro q
    show V c main_v51 (((cfg1.win 0).blk t).view.emb (ix2 (⟨(j 0).val, hj0⟩ : Fin 1000) q)) = _
    refine congrArg _ (funext fun a => Fin.ext ?_)
    match a with
    | ⟨0, _⟩ => show win1_0.index t (0 : Fin 2) * 1000 + 1 * (j 0).val = t.val * 1000 + (j 0).val; omega
    | ⟨1, _⟩ => show win1_0.index t (1 : Fin 2) * 3584 + 1 * q.val = q.val; omega
  · intro q
    show V c main_v54 (((cfg1.win 1).blk t).view.emb (ix2 q (⟨(j 1).val, hj1⟩ : Fin 512))) = _
    refine congrArg _ (funext fun a => Fin.ext ?_)
    match a with
    | ⟨0, _⟩ => show win1_1.index t (0 : Fin 2) * 3584 + 1 * q.val = q.val; omega
    | ⟨1, _⟩ => show win1_1.index t (1 : Fin 2) * 512 + 1 * (j 1).val = (j 1).val; omega
  · intro q
    show V c main_v52 (((cfg1.win 2).blk t).view.emb (ix2 (⟨(j 0).val, hj0⟩ : Fin 1000) q)) = _
    refine congrArg _ (funext fun a => Fin.ext ?_)
    match a with
    | ⟨0, _⟩ => show win1_2.index t (0 : Fin 2) * 1000 + 1 * (j 0).val = t.val * 1000 + (j 0).val; omega
    | ⟨1, _⟩ => show win1_2.index t (1 : Fin 2) * 512 + 1 * q.val = q.val; omega
  · intro q
    show V c main_v56 (((cfg1.win 3).blk t).view.emb (ix2 q (⟨(j 1).val, hj1⟩ : Fin 512))) = _
    refine congrArg _ (funext fun a => Fin.ext ?_)
    match a with
    | ⟨0, _⟩ => show win1_3.index t (0 : Fin 2) * 512 + 1 * q.val = q.val; omega
    | ⟨1, _⟩ => show win1_3.index t (1 : Fin 2) * 512 + 1 * (j 1).val = (j 1).val; omega
  · show V c main_v57 (((cfg1.win 4).blk t).view.emb (ix2 (0 : Fin 1) (⟨(j 1).val, hj1⟩ : Fin 512))) = _
    refine congrArg _ (funext fun a => Fin.ext ?_)
    match a with
    | ⟨0, _⟩ => show win1_4.index t (0 : Fin 2) * 1 + 1 * 0 = 0; omega
    | ⟨1, _⟩ => show win1_4.index t (1 : Fin 2) * 512 + 1 * (j 1).val = (j 1).val; omega

/-- An index of the result array is in point t's block iff each coordinate is in the block's range on its axis. -/
theorem mem_blk (t : Fin cfg1.N) (i : S10000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v58).slice (win1_5.rect t)).set ↔ _
  rw [View.set_slice_whole, Rect.mem_set_unit]
  exact Iff.rfl

/-- The ten blocks of 1000 rows tile the result array: row r is in the block of point r / 1000. -/
theorem cover (i : S10000x512.Idx) : ∃ t : Fin cfg1.N, (cfg1.win 5).flush t = true ∧ i ∈ ((cfg1.win 5).blk t).view.set := by
  have hi0 : (i 0).val < 10000 := (i 0).isLt
  have hi1 : (i 1).val < 512 := (i 1).isLt
  let t : Fin cfg1.N := ⟨(i 0).val / 1000, by rw [show cfg1.N = 10 from N_1]; omega⟩
  obtain ⟨-, -, -, -, -, -, -, -, -, -, e50, e51⟩ := idx_facts t
  have htv : t.val = (i 0).val / 1000 := rfl
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 512 ≤ (i 1).val ∧ (i 1).val < win1_5.index t (1 : Fin 2) * 512 + 512; omega

/-- The result array after the region: the layer of the arrays the region was entered with. -/
theorem final (c : Dev nD) : (dat1 V c).arrAt 5 cfg1.N = result V c :=
  (dat1 V c).arrAt_eq_of_cover 5 (result V c) (fun t _ => flushed_eq V c t) cover

end Cert.Region1

end
-- ==== Proof.Region2.lean ====
/-
  The third launch of the dense step, read as a value.

  The launch runs ten grid points. Point t loads rows 1000 t … 1000 t + 999 of the aggregated messages and of the node
  features, the two weight matrices and the summed bias row whole, and writes back rows 1000 t … 1000 t + 999 of the
  result. What it writes is the layer function of what it loaded, and a block of rows of the layer function of the
  arrays is the layer function of the blocks; the ten blocks tile the 10000 rows. So after the launch the result array
  is the layer function of the arrays the launch was entered with, whatever those are.
-/
import proofs.«146694_j781684048169_1_alg».proof.Proof.Gen.KernelIdeal.Frame
import proofs.«146694_j781684048169_1_alg».proof.Proof.Payload
import Idealize.ShloMosaic.Lib.Pipeline.Value

set_option maxRecDepth 16384

noncomputable section

namespace Cert.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Combine

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t takes rows 1000 t … 1000 t + 999 of the messages, of the features and of the
    result, all columns; the two weight matrices and the bias row are taken whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays as the region finds them. -/
abbrev result (c : Dev nD) : (⟨2, ![10000, 512]⟩ : Shape).Idx → EReal :=
  fused (n := 10000) (V c main_v78) (V c main_v81) (V c main_v79) (V c main_v83) (V c main_v84)

/-- What point t writes back is rows 1000 t … 1000 t + 999 of the layer of the whole arrays: the body's block is the
    layer of the loaded blocks, and each loaded block is the rows (or the whole) of its array that the index maps say. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S1000x3584) hz, View.ld_unit_zero (S := S3584x512) hz, View.ld_unit_zero (S := S1000x512) hz,
    View.ld_unit_zero (S := S512x512) hz, View.ld_unit_zero (S := S1x512) hz]
  rw [Cert.Payload.pay2_eq]
  funext j
  have hj0 : (j 0).val < 1000 := (j 0).isLt
  have hj1 : (j 1).val < 512 := (j 1).isLt
  have ht : t.val < 10 := N_2 ▸ t.isLt
  obtain ⟨e00, e01, e10, e11, e20, e21, e30, e31, e40, e41, e50, e51⟩ := idx_facts t
  have hE : ((cfg2.win 5).blk t).view.emb j = ix2 (⟨t.val * 1000 + (j 0).val, by omega⟩ : Fin 10000) (⟨(j 1).val, hj1⟩ : Fin 512) := by
    funext a; apply Fin.ext
    match a with
    | ⟨0, _⟩ => show win2_5.index t (0 : Fin 2) * 1000 + 1 * (j 0).val = t.val * 1000 + (j 0).val; omega
    | ⟨1, _⟩ => show win2_5.index t (1 : Fin 2) * 512 + 1 * (j 1).val = (j 1).val; omega
  show fused (n := 1000) (iblk2 V c 0 t) (iblk2 V c 1 t) (iblk2 V c 2 t) (iblk2 V c 3 t) (iblk2 V c 4 t) ((win2 5).xinj (grid2.coords t) j)
    = result V c (((cfg2.win 5).blk t).view.emb j)
  rw [hE]
  show fusedAt (n := 1000) (iblk2 V c 0 t) (iblk2 V c 1 t) (iblk2 V c 2 t) (iblk2 V c 3 t) (iblk2 V c 4 t) ⟨(j 0).val, hj0⟩ ⟨(j 1).val, hj1⟩
    = fusedAt (n := 10000) (V c main_v78) (V c main_v81) (V c main_v79) (V c main_v83) (V c main_v84) ⟨t.val * 1000 + (j 0).val, by omega⟩ ⟨(j 1).val, hj1⟩
  refine fusedAt_blocks _ _ _ _ _ _ _ _ _ _ _ _ _ ?_ ?_ ?_ ?_ ?_
  · intro q
    show V c main_v78 (((cfg2.win 0).blk t).view.emb (ix2 (⟨(j 0).val, hj0⟩ : Fin 1000) q)) = _
    refine congrArg _ (funext fun a => Fin.ext ?_)
    match a with
    | ⟨0, _⟩ => show win2_0.index t (0 : Fin 2) * 1000 + 1 * (j 0).val = t.val * 1000 + (j 0).val; omega
    | ⟨1, _⟩ => show win2_0.index t (1 : Fin 2) * 3584 + 1 * q.val = q.val; omega
  · intro q
    show V c main_v81 (((cfg2.win 1).blk t).view.emb (ix2 q (⟨(j 1).val, hj1⟩ : Fin 512))) = _
    refine congrArg _ (funext fun a => Fin.ext ?_)
    match a with
    | ⟨0, _⟩ => show win2_1.index t (0 : Fin 2) * 3584 + 1 * q.val = q.val; omega
    | ⟨1, _⟩ => show win2_1.index t (1 : Fin 2) * 512 + 1 * (j 1).val = (j 1).val; omega
  · intro q
    show V c main_v79 (((cfg2.win 2).blk t).view.emb (ix2 (⟨(j 0).val, hj0⟩ : Fin 1000) q)) = _
    refine congrArg _ (funext fun a => Fin.ext ?_)
    match a with
    | ⟨0, _⟩ => show win2_2.index t (0 : Fin 2) * 1000 + 1 * (j 0).val = t.val * 1000 + (j 0).val; omega
    | ⟨1, _⟩ => show win2_2.index t (1 : Fin 2) * 512 + 1 * q.val = q.val; omega
  · intro q
    show V c main_v83 (((cfg2.win 3).blk t).view.emb (ix2 q (⟨(j 1).val, hj1⟩ : Fin 512))) = _
    refine congrArg _ (funext fun a => Fin.ext ?_)
    match a with
    | ⟨0, _⟩ => show win2_3.index t (0 : Fin 2) * 512 + 1 * q.val = q.val; omega
    | ⟨1, _⟩ => show win2_3.index t (1 : Fin 2) * 512 + 1 * (j 1).val = (j 1).val; omega
  · show V c main_v84 (((cfg2.win 4).blk t).view.emb (ix2 (0 : Fin 1) (⟨(j 1).val, hj1⟩ : Fin 512))) = _
    refine congrArg _ (funext fun a => Fin.ext ?_)
    match a with
    | ⟨0, _⟩ => show win2_4.index t (0 : Fin 2) * 1 + 1 * 0 = 0; omega
    | ⟨1, _⟩ => show win2_4.index t (1 : Fin 2) * 512 + 1 * (j 1).val = (j 1).val; omega

/-- An index of the result array is in point t's block iff each coordinate is in the block's range on its axis. -/
theorem mem_blk (t : Fin cfg2.N) (i : S10000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v85).slice (win2_5.rect t)).set ↔ _
  rw [View.set_slice_whole, Rect.mem_set_unit]
  exact Iff.rfl

/-- The ten blocks of 1000 rows tile the result array: row r is in the block of point r / 1000. -/
theorem cover (i : S10000x512.Idx) : ∃ t : Fin cfg2.N, (cfg2.win 5).flush t = true ∧ i ∈ ((cfg2.win 5).blk t).view.set := by
  have hi0 : (i 0).val < 10000 := (i 0).isLt
  have hi1 : (i 1).val < 512 := (i 1).isLt
  let t : Fin cfg2.N := ⟨(i 0).val / 1000, by rw [show cfg2.N = 10 from N_2]; omega⟩
  obtain ⟨-, -, -, -, -, -, -, -, -, -, e50, e51⟩ := idx_facts t
  have htv : t.val = (i 0).val / 1000 := rfl
  refine ⟨t, flush2_5 t, ?_⟩
  rw [mem_blk]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 512 ≤ (i 1).val ∧ (i 1).val < win2_5.index t (1 : Fin 2) * 512 + 512; omega

/-- The result array after the region: the layer of the arrays the region was entered with. -/
theorem final (c : Dev nD) : (dat2 V c).arrAt 5 cfg2.N = result V c :=
  (dat2 V c).arrAt_eq_of_cover 5 (result V c) (fun t _ => flushed_eq V c t) cover

end Cert.Region2

end
-- ==== Proof.Layers.lean ====
/-
  The network's three layers as functions of whole arrays, in the order the kernel's program computes them.

  Each layer first aggregates messages on the host: edge e carries  edge_weight e · h (node_in e)  (a gather of rows of
  h, negative indices wrapped by the number of nodes, scaled by the edge's weight), and the messages are summed into
  70000 segments by the edge's segment id  7 · node_out e + relation e  (a scatter-add into zeros), the result
  re-laid as [10000, 3584]. This chain is the same text in both programs and is carried as one function, never opened.
  Then the dense step (the layer function of Combine) with slab k of each weight stack and row k of each bias array,
  k the layer's number.
-/
import proofs.«146694_j781684048169_1_alg».proof.Proof.Gen.KernelIdeal
import proofs.«146694_j781684048169_1_alg».proof.Proof.Combine
import Idealize.ShloMosaic.PureOps.Ideal

noncomputable section

namespace Cert.Layers

open Idealize.ShloMosaic Cert.KernelIdeal Cert.KernelIdeal.Gen Cert.Combine

/-- The segment id of every edge: 7 · node_out + relation. -/
def seg (nout rel : (⟨S160000, .i32⟩ : BufTy).Contents (Elt Ideal)) : (⟨S160000, .i32⟩ : BufTy).Contents (Elt Ideal) :=
  addi (muli nout (broadcastInDim S160000 ![] bcast_S_S160000 (constantI S_ 32 7#32))) rel

/-- The aggregated messages of the node features  h , as a [10000, 3584] array: the gather of  h 's rows at the edges'
    sources (wrapped when negative), scaled by the edge weights, summed into the segments  sg , re-laid. -/
def agg (ew : (⟨S160000, .f32⟩ : BufTy).Contents (Elt Ideal)) (nin sg : (⟨S160000, .i32⟩ : BufTy).Contents (Elt Ideal)) (h : (⟨S10000x512, .f32⟩ : BufTy).Contents (Elt Ideal)) :
    (⟨S10000x3584, .f32⟩ : BufTy).Contents (Elt Ideal) :=
  shapeCast S10000x3584
    (Host.scatterAdd (F := Ideal) scatter_S70000x512_S160000x1_S160000x512_1_0_0_1
      (broadcastInDim S70000x512 ![] bcast_S_S70000x512 (constant (F := Ideal) S_ .f32 0x00000000#32))
      (broadcastInDim S160000x1 ![0] bcast_S160000_S160000x1_0 sg)
      (mulf (broadcastInDim S160000x512 ![0, 1] bcast_S160000x1_S160000x512_0_1 (broadcastInDim S160000x1 ![0] bcast_S160000_S160000x1_0 ew))
        (Host.gather gather_S10000x512_S160000x1_S160000x512_1_0_n_n_0_1_1512 h
          (broadcastInDim S160000x1 ![0] bcast_S160000_S160000x1_0
            (select (cmpi .slt nin (broadcastInDim S160000 ![] bcast_S_S160000 (constantI S_ 32 0#32)))
              (addi nin (broadcastInDim S160000 ![] bcast_S_S160000 (constantI S_ 32 10000#32))) nin)))))
    shapeCasts_S70000x512_S10000x3584

/-- Slab k of the [3, 3584, 512] weight stack, as a matrix. -/
def wl (k : Nat) (hk : S3x3584x512.Slices ![k, 0, 0] S1x3584x512) (W : (⟨S3x3584x512, .f32⟩ : BufTy).Contents (Elt Ideal)) : (⟨S3584x512, .f32⟩ : BufTy).Contents (Elt Ideal) :=
  shapeCast S3584x512 (extractStridedSlice S1x3584x512 ![k, 0, 0] W hk) shapeCasts_S1x3584x512_S3584x512

/-- Slab k of the [3, 512, 512] weight stack, as a matrix. -/
def ws (k : Nat) (hk : S3x512x512.Slices ![k, 0, 0] S1x512x512) (W : (⟨S3x512x512, .f32⟩ : BufTy).Contents (Elt Ideal)) : (⟨S512x512, .f32⟩ : BufTy).Contents (Elt Ideal) :=
  shapeCast S512x512 (extractStridedSlice S1x512x512 ![k, 0, 0] W hk) shapeCasts_S1x512x512_S512x512

/-- Row k of a [3, 512] bias array, as a vector. -/
def row (k : Nat) (hk : S3x512.Slices ![k, 0] S1x512) (b : (⟨S3x512, .f32⟩ : BufTy).Contents (Elt Ideal)) : (⟨S512, .f32⟩ : BufTy).Contents (Elt Ideal) :=
  shapeCast S512 (extractStridedSlice S1x512 ![k, 0] b hk) shapeCasts_S1x512_S512

/-- The sum of rows k of the two bias arrays, as a [1, 512] row. -/
def bias (k : Nat) (hk : S3x512.Slices ![k, 0] S1x512) (b3 b5 : (⟨S3x512, .f32⟩ : BufTy).Contents (Elt Ideal)) : (⟨S1x512, .f32⟩ : BufTy).Contents (Elt Ideal) :=
  shapeCast S1x512 (addf (row k hk b3) (row k hk b5) : FVec Ideal S512 .f32) shapeCasts_S512_S1x512

/-- Layer k of the network, from the node features  h : aggregate the messages, then the dense step with the summed bias. -/
def layer (k : Nat) (hl : S3x3584x512.Slices ![k, 0, 0] S1x3584x512) (hs : S3x512x512.Slices ![k, 0, 0] S1x512x512)
    (hb : S3x512.Slices ![k, 0] S1x512)
    (ew : (⟨S160000, .f32⟩ : BufTy).Contents (Elt Ideal)) (nin sg : (⟨S160000, .i32⟩ : BufTy).Contents (Elt Ideal)) (W2 : (⟨S3x3584x512, .f32⟩ : BufTy).Contents (Elt Ideal))
    (b3 : (⟨S3x512, .f32⟩ : BufTy).Contents (Elt Ideal)) (W4 : (⟨S3x512x512, .f32⟩ : BufTy).Contents (Elt Ideal)) (b5 : (⟨S3x512, .f32⟩ : BufTy).Contents (Elt Ideal))
    (h : (⟨S10000x512, .f32⟩ : BufTy).Contents (Elt Ideal)) : (⟨S10000x512, .f32⟩ : BufTy).Contents (Elt Ideal) :=
  fused (n := 10000) (agg ew nin sg h) (wl k hl W2) h (ws k hs W4) (bias k hb b3 b5)

/-- The node features after the three layers. -/
def nodeOut (x : (⟨S10000x512, .f32⟩ : BufTy).Contents (Elt Ideal)) (ew : (⟨S160000, .f32⟩ : BufTy).Contents (Elt Ideal)) (W2 : (⟨S3x3584x512, .f32⟩ : BufTy).Contents (Elt Ideal))
    (b3 : (⟨S3x512, .f32⟩ : BufTy).Contents (Elt Ideal)) (W4 : (⟨S3x512x512, .f32⟩ : BufTy).Contents (Elt Ideal)) (b5 : (⟨S3x512, .f32⟩ : BufTy).Contents (Elt Ideal))
    (nin nout rel : (⟨S160000, .i32⟩ : BufTy).Contents (Elt Ideal)) : (⟨S10000x512, .f32⟩ : BufTy).Contents (Elt Ideal) :=
  layer 2 slices_S3x3584x512_S1x3584x512_2_0_0 slices_S3x512x512_S1x512x512_2_0_0 slices_S3x512_S1x512_2_0 ew nin (seg nout rel) W2 b3 W4 b5
    (layer 1 slices_S3x3584x512_S1x3584x512_1_0_0 slices_S3x512x512_S1x512x512_1_0_0 slices_S3x512_S1x512_1_0 ew nin (seg nout rel) W2 b3 W4 b5
      (layer 0 slices_S3x3584x512_S1x3584x512_0_0_0 slices_S3x512x512_S1x512x512_0_0_0 slices_S3x512_S1x512_0_0 ew nin (seg nout rel) W2 b3 W4 b5 x))

/-- The graph feature: the node features summed over the nodes. -/
def graphOut (x : (⟨S10000x512, .f32⟩ : BufTy).Contents (Elt Ideal)) (ew : (⟨S160000, .f32⟩ : BufTy).Contents (Elt Ideal)) (W2 : (⟨S3x3584x512, .f32⟩ : BufTy).Contents (Elt Ideal))
    (b3 : (⟨S3x512, .f32⟩ : BufTy).Contents (Elt Ideal)) (W4 : (⟨S3x512x512, .f32⟩ : BufTy).Contents (Elt Ideal)) (b5 : (⟨S3x512, .f32⟩ : BufTy).Contents (Elt Ideal))
    (nin nout rel : (⟨S160000, .i32⟩ : BufTy).Contents (Elt Ideal)) : (⟨S512, .f32⟩ : BufTy).Contents (Elt Ideal) :=
  Host.reduceAdd (F := Ideal) (nodeOut x ew W2 b3 W4 b5 nin nout rel) (constant (F := Ideal) S_ .f32 0x00000000#32) reducesTo_S10000x512_S512_d0 h_S_

end Cert.Layers

end
-- ==== Proof.PassThrough.lean ====
import proofs.«146694_j781684048169_1_alg».proof.Proof.Gen.KernelIdeal.Frame
import proofs.«146694_j781684048169_1_alg».proof.Proof.Layers
import Idealize.ShloMosaic.Lib.StableHlo.Run

set_option maxRecDepth 16384
set_option maxHeartbeats 4000000

noncomputable section

namespace Cert.PassThrough

open Idealize.ShloMosaic Idealize.ShloMosaic.TcCoe Idealize.SL.Sem Idealize.ShloMosaic.StableHlo
open Cert.KernelIdeal Cert.KernelIdeal.Gen Cert.Layers

variable (m : (ℓ : Loc nD τ sig) → Buf (Elt Ideal) ℓ) (ρ : Dev nD → PrngReg) (c : Dev nD)

/-- The edge weights, after the first stretch. -/
theorem W1_arg1 : W1 m ρ c (Proc.devRef .tc main_arg1) = (m ((c.tc : Thread nD τ).loc main_arg1)) := by
  show StableHlo.after hostOps0 (W0 m ρ c) (Proc.devRef .tc main_arg1) = _
  after_results_simp <;> rfl
/-- The first launch leaves it. -/
theorem W2_arg1 : W2 m ρ c (Proc.devRef .tc main_arg1) = (m ((c.tc : Thread nD τ).loc main_arg1)) :=
  (W2_of_ne m ρ c main_arg1 (by decide)).trans (W1_arg1 m ρ c)
/-- The second stretch leaves it. -/
theorem W3_arg1 : W3 m ρ c (Proc.devRef .tc main_arg1) = (m ((c.tc : Thread nD τ).loc main_arg1)) := by
  show StableHlo.after hostOps1 (W2 m ρ c) (Proc.devRef .tc main_arg1) = _
  after_results_simp
  exact W2_arg1 m ρ c
/-- The second launch leaves it. -/
theorem W4_arg1 : W4 m ρ c (Proc.devRef .tc main_arg1) = (m ((c.tc : Thread nD τ).loc main_arg1)) :=
  (W4_of_ne m ρ c main_arg1 (by decide)).trans (W3_arg1 m ρ c)

/-- The first bias array, after the first stretch. -/
theorem W1_arg3 : W1 m ρ c (Proc.devRef .tc main_arg3) = (m ((c.tc : Thread nD τ).loc main_arg3)) := by
  show StableHlo.after hostOps0 (W0 m ρ c) (Proc.devRef .tc main_arg3) = _
  after_results_simp <;> rfl
/-- The first launch leaves it. -/
theorem W2_arg3 : W2 m ρ c (Proc.devRef .tc main_arg3) = (m ((c.tc : Thread nD τ).loc main_arg3)) :=
  (W2_of_ne m ρ c main_arg3 (by decide)).trans (W1_arg3 m ρ c)
/-- The second stretch leaves it. -/
theorem W3_arg3 : W3 m ρ c (Proc.devRef .tc main_arg3) = (m ((c.tc : Thread nD τ).loc main_arg3)) := by
  show StableHlo.after hostOps1 (W2 m ρ c) (Proc.devRef .tc main_arg3) = _
  after_results_simp
  exact W2_arg3 m ρ c
/-- The second launch leaves it. -/
theorem W4_arg3 : W4 m ρ c (Proc.devRef .tc main_arg3) = (m ((c.tc : Thread nD τ).loc main_arg3)) :=
  (W4_of_ne m ρ c main_arg3 (by decide)).trans (W3_arg3 m ρ c)

/-- The second bias array, after the first stretch. -/
theorem W1_arg5 : W1 m ρ c (Proc.devRef .tc main_arg5) = (m ((c.tc : Thread nD τ).loc main_arg5)) := by
  show StableHlo.after hostOps0 (W0 m ρ c) (Proc.devRef .tc main_arg5) = _
  after_results_simp <;> rfl
/-- The first launch leaves it. -/
theorem W2_arg5 : W2 m ρ c (Proc.devRef .tc main_arg5) = (m ((c.tc : Thread nD τ).loc main_arg5)) :=
  (W2_of_ne m ρ c main_arg5 (by decide)).trans (W1_arg5 m ρ c)
/-- The second stretch leaves it. -/
theorem W3_arg5 : W3 m ρ c (Proc.devRef .tc main_arg5) = (m ((c.tc : Thread nD τ).loc main_arg5)) := by
  show StableHlo.after hostOps1 (W2 m ρ c) (Proc.devRef .tc main_arg5) = _
  after_results_simp
  exact W2_arg5 m ρ c
/-- The second launch leaves it. -/
theorem W4_arg5 : W4 m ρ c (Proc.devRef .tc main_arg5) = (m ((c.tc : Thread nD τ).loc main_arg5)) :=
  (W4_of_ne m ρ c main_arg5 (by decide)).trans (W3_arg5 m ρ c)

/-- The edges' source nodes, after the first stretch. -/
theorem W1_arg6 : W1 m ρ c (Proc.devRef .tc main_arg6) = (m ((c.tc : Thread nD τ).loc main_arg6)) := by
  show StableHlo.after hostOps0 (W0 m ρ c) (Proc.devRef .tc main_arg6) = _
  after_results_simp <;> rfl
/-- The first launch leaves it. -/
theorem W2_arg6 : W2 m ρ c (Proc.devRef .tc main_arg6) = (m ((c.tc : Thread nD τ).loc main_arg6)) :=
  (W2_of_ne m ρ c main_arg6 (by decide)).trans (W1_arg6 m ρ c)
/-- The second stretch leaves it. -/
theorem W3_arg6 : W3 m ρ c (Proc.devRef .tc main_arg6) = (m ((c.tc : Thread nD τ).loc main_arg6)) := by
  show StableHlo.after hostOps1 (W2 m ρ c) (Proc.devRef .tc main_arg6) = _
  after_results_simp
  exact W2_arg6 m ρ c
/-- The second launch leaves it. -/
theorem W4_arg6 : W4 m ρ c (Proc.devRef .tc main_arg6) = (m ((c.tc : Thread nD τ).loc main_arg6)) :=
  (W4_of_ne m ρ c main_arg6 (by decide)).trans (W3_arg6 m ρ c)

/-- The segment ids, after the first stretch. -/
theorem W1_v4 : W1 m ρ c (Proc.devRef .tc main_v4) = seg (m ((c.tc : Thread nD τ).loc main_arg7)) (m ((c.tc : Thread nD τ).loc main_arg8)) := by
  show StableHlo.after hostOps0 (W0 m ρ c) (Proc.devRef .tc main_v4) = _
  after_results_simp <;> rfl
/-- The first launch leaves it. -/
theorem W2_v4 : W2 m ρ c (Proc.devRef .tc main_v4) = seg (m ((c.tc : Thread nD τ).loc main_arg7)) (m ((c.tc : Thread nD τ).loc main_arg8)) :=
  (W2_of_ne m ρ c main_v4 (by decide)).trans (W1_v4 m ρ c)
/-- The second stretch leaves it. -/
theorem W3_v4 : W3 m ρ c (Proc.devRef .tc main_v4) = seg (m ((c.tc : Thread nD τ).loc main_arg7)) (m ((c.tc : Thread nD τ).loc main_arg8)) := by
  show StableHlo.after hostOps1 (W2 m ρ c) (Proc.devRef .tc main_v4) = _
  after_results_simp
  exact W2_v4 m ρ c
/-- The second launch leaves it. -/
theorem W4_v4 : W4 m ρ c (Proc.devRef .tc main_v4) = seg (m ((c.tc : Thread nD τ).loc main_arg7)) (m ((c.tc : Thread nD τ).loc main_arg8)) :=
  (W4_of_ne m ρ c main_v4 (by decide)).trans (W3_v4 m ρ c)

/-- The first weight stack's bf16 copy: at the ideal values the stack itself, after the first stretch. -/
theorem W1_v0 : W1 m ρ c (Proc.devRef .tc main_v0) = (m ((c.tc : Thread nD τ).loc main_arg2)) := by
  show StableHlo.after hostOps0 (W0 m ρ c) (Proc.devRef .tc main_v0) = _
  after_results_simp <;> rfl
/-- The first launch leaves it. -/
theorem W2_v0 : W2 m ρ c (Proc.devRef .tc main_v0) = (m ((c.tc : Thread nD τ).loc main_arg2)) :=
  (W2_of_ne m ρ c main_v0 (by decide)).trans (W1_v0 m ρ c)
/-- The second stretch leaves it. -/
theorem W3_v0 : W3 m ρ c (Proc.devRef .tc main_v0) = (m ((c.tc : Thread nD τ).loc main_arg2)) := by
  show StableHlo.after hostOps1 (W2 m ρ c) (Proc.devRef .tc main_v0) = _
  after_results_simp
  exact W2_v0 m ρ c
/-- The second launch leaves it. -/
theorem W4_v0 : W4 m ρ c (Proc.devRef .tc main_v0) = (m ((c.tc : Thread nD τ).loc main_arg2)) :=
  (W4_of_ne m ρ c main_v0 (by decide)).trans (W3_v0 m ρ c)

/-- The second weight stack's bf16 copy: at the ideal values the stack itself, after the first stretch. -/
theorem W1_v1 : W1 m ρ c (Proc.devRef .tc main_v1) = (m ((c.tc : Thread nD τ).loc main_arg4)) := by
  show StableHlo.after hostOps0 (W0 m ρ c) (Proc.devRef .tc main_v1) = _
  after_results_simp <;> rfl
/-- The first launch leaves it. -/
theorem W2_v1 : W2 m ρ c (Proc.devRef .tc main_v1) = (m ((c.tc : Thread nD τ).loc main_arg4)) :=
  (W2_of_ne m ρ c main_v1 (by decide)).trans (W1_v1 m ρ c)
/-- The second stretch leaves it. -/
theorem W3_v1 : W3 m ρ c (Proc.devRef .tc main_v1) = (m ((c.tc : Thread nD τ).loc main_arg4)) := by
  show StableHlo.after hostOps1 (W2 m ρ c) (Proc.devRef .tc main_v1) = _
  after_results_simp
  exact W2_v1 m ρ c
/-- The second launch leaves it. -/
theorem W4_v1 : W4 m ρ c (Proc.devRef .tc main_v1) = (m ((c.tc : Thread nD τ).loc main_arg4)) :=
  (W4_of_ne m ρ c main_v1 (by decide)).trans (W3_v1 m ρ c)

end Cert.PassThrough

end
-- ==== Proof.KernelValue.lean ====
/-
  What the kernel's program leaves in its two results, read back through its run.

  The run alternates host stretches and launches. A host stretch's buffers are its operations' values of the buffers
  before it; a launch's result array is the layer function of the arrays it was entered with (Region0, Region1, Region2);
  every other buffer passes through a launch unchanged. Reading backwards from the last boundary: the second result is
  the third launch's array, which is the dense step of (the aggregation of the second launch's array, that array), and so
  on down to the argument  x ; the weights' slabs, the bias rows, the segment ids and the edge data are read from the
  arguments through every boundary they cross (PassThrough). A change of float format is the identity at the ideal
  values, so the bf16 copies the launches stage are the arrays themselves.
-/
import proofs.«146694_j781684048169_1_alg».proof.Proof.Gen.KernelIdeal.Frame
import proofs.«146694_j781684048169_1_alg».proof.Proof.Region0
import proofs.«146694_j781684048169_1_alg».proof.Proof.Region1
import proofs.«146694_j781684048169_1_alg».proof.Proof.Region2
import proofs.«146694_j781684048169_1_alg».proof.Proof.Layers
import proofs.«146694_j781684048169_1_alg».proof.Proof.PassThrough
import Idealize.ShloMosaic.Lib.StableHlo.Run

set_option maxRecDepth 16384
set_option maxHeartbeats 4000000

noncomputable section

namespace Cert.KernelValue

open Idealize.ShloMosaic Idealize.ShloMosaic.TcCoe Idealize.SL.Sem Idealize.ShloMosaic.StableHlo
open Cert.KernelIdeal Cert.KernelIdeal.Gen Cert.Layers Cert.Combine Cert.PassThrough

variable (m : (ℓ : Loc nD τ sig) → Buf (Elt Ideal) ℓ) (ρ : Dev nD → PrngReg) (c : Dev nD)

/-- The segment ids, from the arguments. -/
abbrev sg : (⟨S160000, .i32⟩ : BufTy).Contents (Elt Ideal) := seg (m ((c.tc : Thread nD τ).loc main_arg7)) (m ((c.tc : Thread nD τ).loc main_arg8))

/-- Layer k at the arguments' edge data, weights and biases, as a function of the node features. -/
abbrev lay (k : Nat) (hl : S3x3584x512.Slices ![k, 0, 0] S1x3584x512) (hs : S3x512x512.Slices ![k, 0, 0] S1x512x512)
    (hb : S3x512.Slices ![k, 0] S1x512) (h : (⟨S10000x512, .f32⟩ : BufTy).Contents (Elt Ideal)) :
    (⟨S10000x512, .f32⟩ : BufTy).Contents (Elt Ideal) :=
  layer k hl hs hb (m ((c.tc : Thread nD τ).loc main_arg1)) (m ((c.tc : Thread nD τ).loc main_arg6)) (sg m c) (m ((c.tc : Thread nD τ).loc main_arg2)) (m ((c.tc : Thread nD τ).loc main_arg3)) (m ((c.tc : Thread nD τ).loc main_arg4)) (m ((c.tc : Thread nD τ).loc main_arg5)) h

/-- The node features after the first layer, from the arguments. -/
abbrev h1 : (⟨S10000x512, .f32⟩ : BufTy).Contents (Elt Ideal) := lay m c 0 slices_S3x3584x512_S1x3584x512_0_0_0 slices_S3x512x512_S1x512x512_0_0_0 slices_S3x512_S1x512_0_0 (m ((c.tc : Thread nD τ).loc main_arg0))
/-- The node features after the second layer. -/
abbrev h2 : (⟨S10000x512, .f32⟩ : BufTy).Contents (Elt Ideal) := lay m c 1 slices_S3x3584x512_S1x3584x512_1_0_0 slices_S3x512x512_S1x512x512_1_0_0 slices_S3x512_S1x512_1_0 (h1 m c)
/-- The node features after the third layer. -/
abbrev h3 : (⟨S10000x512, .f32⟩ : BufTy).Contents (Elt Ideal) := lay m c 2 slices_S3x3584x512_S1x3584x512_2_0_0 slices_S3x512x512_S1x512x512_2_0_0 slices_S3x512_S1x512_2_0 (h2 m c)

/-! ## The first stretch: what the first launch is entered with -/

theorem V1_v24 : V1 m ρ c main_v24 = agg (m ((c.tc : Thread nD τ).loc main_arg1)) (m ((c.tc : Thread nD τ).loc main_arg6)) (sg m c) (m ((c.tc : Thread nD τ).loc main_arg0)) := by
  show StableHlo.after hostOps0 (W0 m ρ c) (Proc.devRef .tc main_v24) = _
  after_results_simp <;> rfl

theorem V1_v27 : V1 m ρ c main_v27 = wl 0 slices_S3x3584x512_S1x3584x512_0_0_0 (m ((c.tc : Thread nD τ).loc main_arg2)) := by
  show StableHlo.after hostOps0 (W0 m ρ c) (Proc.devRef .tc main_v27) = _
  after_results_simp <;> rfl

theorem V1_v25 : V1 m ρ c main_v25 = (m ((c.tc : Thread nD τ).loc main_arg0)) := by
  show StableHlo.after hostOps0 (W0 m ρ c) (Proc.devRef .tc main_v25) = _
  after_results_simp <;> rfl

theorem V1_v29 : V1 m ρ c main_v29 = ws 0 slices_S3x512x512_S1x512x512_0_0_0 (m ((c.tc : Thread nD τ).loc main_arg4)) := by
  show StableHlo.after hostOps0 (W0 m ρ c) (Proc.devRef .tc main_v29) = _
  after_results_simp <;> rfl

theorem V1_v30 : V1 m ρ c main_v30 = bias 0 slices_S3x512_S1x512_0_0 (m ((c.tc : Thread nD τ).loc main_arg3)) (m ((c.tc : Thread nD τ).loc main_arg5)) := by
  show StableHlo.after hostOps0 (W0 m ρ c) (Proc.devRef .tc main_v30) = _
  after_results_simp <;> rfl

/-- After the first launch its result array holds the first layer. -/
theorem W2_v31 : W2 m ρ c (Proc.devRef .tc main_v31) = h1 m c := by
  refine (W2_arr m ρ c 5).trans ((Cert.Region0.final (V1 m ρ) c).trans ?_)
  show fused (V1 m ρ c main_v24) (V1 m ρ c main_v27) (V1 m ρ c main_v25) (V1 m ρ c main_v29) (V1 m ρ c main_v30) = _
  rw [V1_v24, V1_v27, V1_v25, V1_v29, V1_v30]
  rfl

/-! ## The second stretch: what the second launch is entered with -/

theorem V3_v51 : V3 m ρ c main_v51 = agg (m ((c.tc : Thread nD τ).loc main_arg1)) (m ((c.tc : Thread nD τ).loc main_arg6)) (sg m c) (h1 m c) := by
  show StableHlo.after hostOps1 (W2 m ρ c) (Proc.devRef .tc main_v51) = _
  after_results_simp
  rw [W2_arg1, W2_arg6, W2_v4, W2_v31]
  rfl

theorem V3_v54 : V3 m ρ c main_v54 = wl 1 slices_S3x3584x512_S1x3584x512_1_0_0 (m ((c.tc : Thread nD τ).loc main_arg2)) := by
  show StableHlo.after hostOps1 (W2 m ρ c) (Proc.devRef .tc main_v54) = _
  after_results_simp
  rw [W2_v0]
  rfl

theorem V3_v52 : V3 m ρ c main_v52 = h1 m c := by
  show StableHlo.after hostOps1 (W2 m ρ c) (Proc.devRef .tc main_v52) = _
  after_results_simp
  rw [W2_v31]
  rfl

theorem V3_v56 : V3 m ρ c main_v56 = ws 1 slices_S3x512x512_S1x512x512_1_0_0 (m ((c.tc : Thread nD τ).loc main_arg4)) := by
  show StableHlo.after hostOps1 (W2 m ρ c) (Proc.devRef .tc main_v56) = _
  after_results_simp
  rw [W2_v1]
  rfl

theorem V3_v57 : V3 m ρ c main_v57 = bias 1 slices_S3x512_S1x512_1_0 (m ((c.tc : Thread nD τ).loc main_arg3)) (m ((c.tc : Thread nD τ).loc main_arg5)) := by
  show StableHlo.after hostOps1 (W2 m ρ c) (Proc.devRef .tc main_v57) = _
  after_results_simp
  rw [W2_arg3, W2_arg5]
  rfl

/-- After the second launch its result array holds the second layer. -/
theorem W4_v58 : W4 m ρ c (Proc.devRef .tc main_v58) = h2 m c := by
  refine (W4_arr m ρ c 5).trans ((Cert.Region1.final (V3 m ρ) c).trans ?_)
  show fused (V3 m ρ c main_v51) (V3 m ρ c main_v54) (V3 m ρ c main_v52) (V3 m ρ c main_v56) (V3 m ρ c main_v57) = _
  rw [V3_v51, V3_v54, V3_v52, V3_v56, V3_v57]
  rfl

/-! ## The third stretch: what the third launch is entered with -/

theorem V5_v78 : V5 m ρ c main_v78 = agg (m ((c.tc : Thread nD τ).loc main_arg1)) (m ((c.tc : Thread nD τ).loc main_arg6)) (sg m c) (h2 m c) := by
  show StableHlo.after hostOps2 (W4 m ρ c) (Proc.devRef .tc main_v78) = _
  after_results_simp
  rw [W4_arg1, W4_arg6, W4_v4, W4_v58]
  rfl

theorem V5_v81 : V5 m ρ c main_v81 = wl 2 slices_S3x3584x512_S1x3584x512_2_0_0 (m ((c.tc : Thread nD τ).loc main_arg2)) := by
  show StableHlo.after hostOps2 (W4 m ρ c) (Proc.devRef .tc main_v81) = _
  after_results_simp
  rw [W4_v0]
  rfl

theorem V5_v79 : V5 m ρ c main_v79 = h2 m c := by
  show StableHlo.after hostOps2 (W4 m ρ c) (Proc.devRef .tc main_v79) = _
  after_results_simp
  rw [W4_v58]
  rfl

theorem V5_v83 : V5 m ρ c main_v83 = ws 2 slices_S3x512x512_S1x512x512_2_0_0 (m ((c.tc : Thread nD τ).loc main_arg4)) := by
  show StableHlo.after hostOps2 (W4 m ρ c) (Proc.devRef .tc main_v83) = _
  after_results_simp
  rw [W4_v1]
  rfl

theorem V5_v84 : V5 m ρ c main_v84 = bias 2 slices_S3x512_S1x512_2_0 (m ((c.tc : Thread nD τ).loc main_arg3)) (m ((c.tc : Thread nD τ).loc main_arg5)) := by
  show StableHlo.after hostOps2 (W4 m ρ c) (Proc.devRef .tc main_v84) = _
  after_results_simp
  rw [W4_arg3, W4_arg5]
  rfl

/-- After the third launch its result array holds the third layer. -/
theorem W6_v85 : W6 m ρ c (Proc.devRef .tc main_v85) = h3 m c := by
  refine (W6_arr m ρ c 5).trans ((Cert.Region2.final (V5 m ρ) c).trans ?_)
  show fused (V5 m ρ c main_v78) (V5 m ρ c main_v81) (V5 m ρ c main_v79) (V5 m ρ c main_v83) (V5 m ρ c main_v84) = _
  rw [V5_v78, V5_v81, V5_v79, V5_v83, V5_v84]
  rfl

/-! ## The last stretch: the two results -/

/-- The node features: the third layer, which the last stretch leaves alone. -/
theorem W7_v85 : W7 m ρ c (Proc.devRef .tc main_v85)
    = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (W6 m ρ c) (Proc.devRef .tc main_v85) = _
  after_results_simp
  exact W6_v85 m ρ c

/-- The graph feature: the node features summed over the nodes. -/
theorem W7_v86 : W7 m ρ c (Proc.devRef .tc main_v86)
    = graphOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (W6 m ρ c) (Proc.devRef .tc main_v86) = _
  after_results_simp
  rw [W6_v85]
  rfl

end Cert.KernelValue

end
-- ==== Proof.RefValue.lean ====
/-
  What the reference computes, as the same function of the arguments as the kernel's program.

  The reference's run ends with each result at one closed term of the arguments: per layer the same aggregation chain
  as the kernel's program, then  max ((((U · Wl) + bl) + (H · Ws)) + bs , 0)  on whole arrays, each bias vector broadcast
  to a row and down the rows, the zero a broadcast scalar. Read at an entry, the two host products are the plain sums
  over the shared axis (the rows-by-columns lemma again, now with all 10000 rows), so the dense step is the layer
  function in the reference's grouping, which is the layer function with the summed bias (Combine). Rewriting the three
  dense steps leaves the kernel's own composition of layers.
-/
import proofs.«146694_j781684048169_1_alg».proof.Proof.Gen.ReferenceIdeal.Run
import proofs.«146694_j781684048169_1_alg».proof.Proof.Layers
import proofs.«146694_j781684048169_1_alg».proof.Proof.LibDotRowsCols
import Idealize.ShloMosaic.Lib.Pipeline.Value
import Idealize.ShloMosaic.Lib.ValueIdx
import Idealize.ShloMosaic.PureOps.Ideal.Laws

set_option maxRecDepth 16384
set_option maxHeartbeats 4000000

noncomputable section

open scoped BigOperators

namespace Cert.RefValue

open Idealize.ShloMosaic Idealize.ShloMosaic.TcCoe Idealize.ShloMosaic.ValueIdx Idealize.SL.Sem
open Cert.ReferenceIdeal Cert.ReferenceIdeal.Gen Cert.Lib.DotRowsCols Cert.Combine Cert.Layers

/-- The reference's first product's dimension numbers are those of a rows-by-columns product. -/
theorem rowsCols_wl : RowsCols dot_S10000x3584_S3584x512_S10000x512_1_0_0_1_n_n := ⟨rfl, rfl, rfl, rfl, rfl, rfl⟩

/-- The reference's second product's dimension numbers are those of a rows-by-columns product. -/
theorem rowsCols_ws : RowsCols dot_S10000x512_S512x512_S10000x512_1_0_0_1_n_n := ⟨rfl, rfl, rfl, rfl, rfl, rfl⟩

/-- A bias vector broadcast to a row and then down the rows, at (r, v), is its entry v. -/
theorem bias_bcast (b : FVec Ideal S512 .f32) (r : Fin 10000) (v : Fin 512) :
    broadcastInDim S10000x512 ![0, 1] bcast_S1x512_S10000x512_0_1 (broadcastInDim S1x512 ![1] bcast_S512_S1x512_1 b) (ix2 r v)
      = b (ix1 v) := by
  rw [broadcastInDim_apply _ _ _ (ix2 r v) (ix2 0 v) (fun a => by match a with | ⟨0, _⟩ => rfl | ⟨1, _⟩ => rfl),
    broadcastInDim_apply _ _ _ (ix2 (0 : Fin 1) v) (ix1 v) (fun a => by match a with | ⟨0, _⟩ => rfl)]

/-- The broadcast zero the result is compared with is the extended real 0. -/
theorem relu_zero (r : Fin 10000) (v : Fin 512) :
    broadcastInDim S10000x512 ![] bcast_S_S10000x512 (constant (F := Ideal) S_ .f32 0x00000000#32) (ix2 r v) = 0 := by
  rw [broadcastInDim_apply _ _ _ (ix2 r v) ix0 (fun a => a.elim0), constant_apply, Ideal.ofBits_zero_f32]

/-- The sum of two bias vectors re-laid as a row, at (0, v), is the sum of their entries v. -/
theorem bias_sum (bl bs : FVec Ideal Cert.KernelIdeal.S512 .f32) (v : Fin 512) :
    shapeCast Cert.KernelIdeal.S1x512 (addf bl bs : FVec Ideal Cert.KernelIdeal.S512 .f32) Cert.KernelIdeal.Gen.shapeCasts_S512_S1x512 (ix2 0 v)
      = bl (ix1 v) + bs (ix1 v) := by
  rw [shapeCast_apply _ _ (ix2 (0 : Fin 1) v) (ix1 v) (by rw [Shape.rowMajor_val_one, Shape.rowMajor_val_two]; show v.val = 0 * 512 + v.val; omega)]
  rfl

/-- One dense step as the reference spells it is the layer function with the summed bias. -/
theorem dense_bridge (U : FVec Ideal S10000x3584 .f32) (Wl : FVec Ideal S3584x512 .f32) (H : FVec Ideal S10000x512 .f32)
    (Ws : FVec Ideal S512x512 .f32) (bl bs : FVec Ideal S512 .f32) :
    maximumf (addf (addf (addf (Host.dotGeneral dot_S10000x3584_S3584x512_S10000x512_1_0_0_1_n_n none U Wl)
        (broadcastInDim S10000x512 ![0, 1] bcast_S1x512_S10000x512_0_1 (broadcastInDim S1x512 ![1] bcast_S512_S1x512_1 bl)))
        (Host.dotGeneral dot_S10000x512_S512x512_S10000x512_1_0_0_1_n_n none H Ws))
        (broadcastInDim S10000x512 ![0, 1] bcast_S1x512_S10000x512_0_1 (broadcastInDim S1x512 ![1] bcast_S512_S1x512_1 bs)))
      (broadcastInDim S10000x512 ![] bcast_S_S10000x512 (constant (F := Ideal) S_ .f32 0x00000000#32))
    = fused (n := 10000) U Wl H Ws
        (shapeCast Cert.KernelIdeal.S1x512 (addf bl bs : FVec Ideal Cert.KernelIdeal.S512 .f32) Cert.KernelIdeal.Gen.shapeCasts_S512_S1x512) := by
  rw [fused_eq_layered U Wl H Ws _ bl bs (fun v => bias_sum bl bs v)]
  funext i
  obtain ⟨r, v, rfl⟩ : ∃ (r : Fin 10000) (v : Fin 512), i = ix2 r v := ⟨i 0, i 1, eq_ix2 i⟩
  rw [maximumf_apply, addf_apply, addf_apply, addf_apply, rowsCols_wl.dotGeneral_apply, rowsCols_ws.dotGeneral_apply,
    bias_bcast, bias_bcast, relu_zero]
  rfl

variable (m : (ℓ : Loc nD τ sig) → Buf (Elt Ideal) ℓ) (c : Dev nD)

/-- The reference's node features are the three layers of its arguments. -/
theorem res_node : Cert.ReferenceIdeal.Value.res_main_v98 m c
    = nodeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v98
  rw [dense_bridge, dense_bridge, dense_bridge]
  rfl

/-- The reference's graph feature is their sum over the nodes. -/
theorem res_graph : Cert.ReferenceIdeal.Value.res_main_v99 m c
    = graphOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v99
  rw [dense_bridge, dense_bridge, dense_bridge]
  rfl

end Cert.RefValue

end
-- ==== Proof.lean ====
/-
  The certificate of a three-layer relational message-passing network (GearNet style) whose dense step runs as a
  Pallas kernel, against its plain-jnp reference.

  Per layer both programs aggregate messages on the host in the same way (gather the source nodes' rows, scale by the
  edge weight, sum into 7 segments per destination node, re-lay as [10000, 3584]) and then compute

      h' = max ( U · Wl + h · Ws + b_lin + b_self , 0 ).

  The kernel's program does the dense step in a launch of ten grid points of 1000 rows each, with both products
  accumulated in one body and the two bias rows summed on the host beforehand; the reference adds each bias right after
  its product. At the ideal values the bf16 copies are the arrays themselves, each product at an entry is the plain sum
  over the shared axis whatever the row blocking, and the two groupings of the four-term sum are the same extended real
  (commutativity and associativity only: no finiteness is used, so the precondition is never opened). The graph
  feature is the same column sum of equal node features.

  Frames: the kernel's two programs by their generated frame certificates, the reference's by its generated run.
  Values: the kernel's run with its results named (RunNamed), read back through the launches and host stretches
  (Region0-2, PassThrough, KernelValue) to  Layers.nodeOut / graphOut  of the arguments; the reference's run term
  rewritten to the same functions (RefValue).
-/
import proofs.«146694_j781684048169_1_alg».proof.Defs
import proofs.«146694_j781684048169_1_alg».proof.Proof.Gen.Kernel
import proofs.«146694_j781684048169_1_alg».proof.Proof.Gen.Kernel.Skeleton
import proofs.«146694_j781684048169_1_alg».proof.Proof.Gen.Kernel.Launch
import proofs.«146694_j781684048169_1_alg».proof.Proof.Gen.Kernel.Points
import proofs.«146694_j781684048169_1_alg».proof.Proof.Gen.Kernel.Frame
import proofs.«146694_j781684048169_1_alg».proof.Proof.Gen.KernelIdeal
import proofs.«146694_j781684048169_1_alg».proof.Proof.Gen.KernelIdeal.Skeleton
import proofs.«146694_j781684048169_1_alg».proof.Proof.Gen.KernelIdeal.Launch
import proofs.«146694_j781684048169_1_alg».proof.Proof.Gen.KernelIdeal.Points
import proofs.«146694_j781684048169_1_alg».proof.Proof.Gen.KernelIdeal.Frame
import proofs.«146694_j781684048169_1_alg».proof.Proof.Gen.ReferenceIdeal
import proofs.«146694_j781684048169_1_alg».proof.Proof.Gen.ReferenceIdeal.Run
import proofs.«146694_j781684048169_1_alg».proof.Proof.Gen.Pre_finite_inputs
import proofs.«146694_j781684048169_1_alg».proof.Proof.RunNamed
import proofs.«146694_j781684048169_1_alg».proof.Proof.KernelValue
import proofs.«146694_j781684048169_1_alg».proof.Proof.RefValue
import Idealize.ShloMosaic.Adequacy
import Idealize.ShloMosaic.Init

noncomputable section

namespace Cert.Proof

open Idealize.ShloMosaic Idealize.SL.Sem

/-- The kernel's program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the graph feature and the node features at the same
    functions of the arguments. -/
theorem algebraic : Cert.algebraic_KernelIdeal_ReferenceIdeal := by
  intro m ρ m' ρ' _ hagree
  refine ⟨fun c => Cert.Layers.graphOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Cert.Layers.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelValue.W7_v86 m ρ c), (h c).2.1.trans (Cert.KernelValue.W7_v85 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.RefValue.res_graph, e0, e1, e2, e3, e4, e5, e6, e7, e8]
    · obtain ⟨e0, e1, e2, e3, e4, e5, e6, e7, e8⟩ := hagree c
      rw [Cert.RefValue.res_node, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
